-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) (main_arg2 : FVec F S8192x256 .f32) (main_arg3 : IVec S8192x8192 1) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S8192x256 : Shape := ⟨2, ![8192, 256]⟩
abbrev S8192x8192 : Shape := ⟨2, ![8192, 8192]⟩
abbrev S2048x256 : Shape := ⟨2, ![2048, 256]⟩
abbrev S512x256 : Shape := ⟨2, ![512, 256]⟩
abbrev S2048x512 : Shape := ⟨2, ![2048, 512]⟩
abbrev S2048x1 : Shape := ⟨2, ![2048, 1]⟩
abbrev S2048 : Shape := ⟨1, ![2048]⟩

abbrev nBuf : Space → Nat
  | .hbm => 6
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x8192, .i1⟩
  | .hbm, ⟨4, _⟩ => ⟨S8192x8192, .i32⟩
  | .hbm, ⟨5, _⟩ => ⟨S8192x256, .f32⟩
  | .local _ .vmem, ⟨0, _⟩ => ⟨S2048x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S2048x512, .i32⟩
  | .local _ .vmem, ⟨6, _⟩ => ⟨S2048x512, .i32⟩
  | .local _ .vmem, ⟨7, _⟩ => ⟨S2048x256, .f32⟩
  | .local _ .vmem, ⟨8, _⟩ => ⟨S2048x256, .f32⟩
  | .local _ .vmem, ⟨9, _⟩ => ⟨S2048x1, .f32⟩
  | .local _ .vmem, ⟨10, _⟩ => ⟨S2048x1, .f32⟩
  | .local _ .vmem, ⟨11, _⟩ => ⟨S2048x256, .f32⟩
  | .local _ .vmem, ⟨12, _⟩ => ⟨S2048x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_25 : BitVec 32 := 0#32
  let v44 : BitVec 1 := Scalar.cmpi .ne v43 c0_i32_25
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  natLt_1_32 : 1 < 32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  packedbf16_S2048x256_S2048x256_0_0 : (Rect.unit (s := S2048x256) ![0, 0] S2048x256.size inb_S2048x256_S2048x256_0_0).PackedRows (EltTy.packing .bf16)
  inb_S512x256_S512x256_0_0 : ∀ a, (![0, 0] : Fin 2 → Nat) a + S512x256.size a ≤ S512x256.size a
  h_S512x256 : 0 < S512x256.numel
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x256 : S2048x1.Broadcasts S2048x256
  dot_S2048x256_S512x256_S2048x512_1_1_0_0_n_n_wf : DotDims.WF S2048x256 S512x256 S2048x512 [1] [1] [0] [0] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .f32 = 32 ∨ (Rect.block (s := S8192x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x8192.size a
  hwx0_3 : ∀ i : grid0.Coords, EltTy.bits .i32 = 32 ∨ (Rect.block (s := S8192x8192) S2048x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S8192x256.size a
  hwx0_4 : ∀ i : grid0.Coords, EltTy.bits .f32 = 32 ∨ (Rect.block (s := S8192x256) S2048x256.size (cc0_transform_4 i) (hinb0_4 i)).WholeWords (EltTy.packing .f32)

variable [Facts₀]

def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg2) S2048x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x8192, .i1⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x256_S8192x256_S8192x8192_1_1_0_0_n_n_wf : DotDims.WF S8192x256 S8192x256 S8192x8192 [1] [1] [0] [0] [] []
  dot_S8192x8192_S8192x256_S8192x256_1_0_0_1_n_n_wf : DotDims.WF S8192x8192 S8192x256 S8192x256 [1] [0] [0] [1] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Pieces.lean ====
/-
  What each control case of the attention body leaves in its carried scratch buffers and in the output block, as
  terms of the body's arithmetic.

  The body at a grid point `(i, j)` runs one of three cases. At the first key tile (`j = 0`) it first resets the
  running maximum to `-∞`, the denominator and the numerator to `0`, and caches the scaled query tile; then, like every
  other point, it updates the three from the key, value and mask tiles; at the last key tile (`j = 15`) it also
  divides the numerator by the denominator into the output block. Each buffer is stored whole, so what a case leaves
  in it is the payload of the LAST store into it, with every load of a buffer stored earlier in the same run read as
  that earlier store's payload:

  * first tile: the update is taken from the reset values and from the freshly cached query tile;
  * later tiles: the update is taken from what the previous point left;
  * last tile: the output is the quotient of the numerator and denominator just stored.
-/
import proofs.«422734_j67654324847232_3_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
namespace Cert.KernelIdeal.Pieces
open Cert.KernelIdeal Cert.KernelIdeal.Gen
variable {F : FTy → Type} [FloatOps F]

/-- A whole-buffer store or load has zero offsets. -/
theorem hz : (![0, 0] : Fin 2 → Nat) = fun _ => 0 := funext fun a => by fin_cases a <;> rfl

/-- First tile, running maximum: the update from the reset value `-∞` and the freshly cached query tile. -/
theorem sA0 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2048x512 .i32) (harg5 : arg5.IsWhole) (arg6 : Memref sig .tc .vmem S2048x256 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (arg10 : Memref sig .tc .vmem S2048x256 .bf16) (harg10 : arg10.IsWhole) (hc0 : cond0_0 i) (hc1 : ¬cond0_1 i) (x0 : Vec F S2048x256 .f32) (x1 : Vec F S512x256 .f32) (x2 : Vec F S512x256 .f32) (x3 : Vec F S2048x512 .i32) :
    sout0_A_0 c i arg2 harg2 arg3 harg3 arg4 harg4 arg5 harg5 arg6 harg6 arg7 harg7 arg8 harg8 arg9 harg9 arg10 harg10 hc0 hc1 x0 x1 x2 x3 = k0_pay2 (k0_pay9 (k0_pay7 x0) x1 x3 (k0_pay4 (F := F))) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x1) hz]
  simp only [View.readAt_eq_ld, harg2.read_unread, harg3.read_unread, harg4.read_unread, harg5.read_unread, harg6.read_unread, harg7.read_unread, harg8.read_unread, harg9.read_unread, harg10.read_unread, View.ld_unit_zero (S := S2048x256) hz, View.ld_unit_zero (S := S512x256) hz, View.ld_unit_zero (S := S2048x512) hz, View.ld_unit_zero (S := S2048x1) hz, View.readCov_unit_zero (S := S2048x256) _ hz, View.readCov_unit_zero (S := S2048x1) _ hz]

/-- First tile, denominator: the update from the reset values. -/
theorem sA1 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2048x512 .i32) (harg5 : arg5.IsWhole) (arg6 : Memref sig .tc .vmem S2048x256 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (arg10 : Memref sig .tc .vmem S2048x256 .bf16) (harg10 : arg10.IsWhole) (hc0 : cond0_0 i) (hc1 : ¬cond0_1 i) (x0 : Vec F S2048x256 .f32) (x1 : Vec F S512x256 .f32) (x2 : Vec F S512x256 .f32) (x3 : Vec F S2048x512 .i32) :
    sout0_A_1 c i arg2 harg2 arg3 harg3 arg4 harg4 arg5 harg5 arg6 harg6 arg7 harg7 arg8 harg8 arg9 harg9 arg10 harg10 hc0 hc1 x0 x1 x2 x3 = k0_pay12 (k0_pay7 x0) x1 x3 (k0_pay4 (F := F)) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x1) hz]
  simp only [View.readAt_eq_ld, harg2.read_unread, harg3.read_unread, harg4.read_unread, harg5.read_unread, harg6.read_unread, harg7.read_unread, harg8.read_unread, harg9.read_unread, harg10.read_unread, View.ld_unit_zero (S := S2048x256) hz, View.ld_unit_zero (S := S512x256) hz, View.ld_unit_zero (S := S2048x512) hz, View.ld_unit_zero (S := S2048x1) hz, View.readCov_unit_zero (S := S2048x256) _ hz, View.readCov_unit_zero (S := S2048x1) _ hz]

/-- First tile, numerator: the update from the reset values. -/
theorem sA2 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2048x512 .i32) (harg5 : arg5.IsWhole) (arg6 : Memref sig .tc .vmem S2048x256 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (arg10 : Memref sig .tc .vmem S2048x256 .bf16) (harg10 : arg10.IsWhole) (hc0 : cond0_0 i) (hc1 : ¬cond0_1 i) (x0 : Vec F S2048x256 .f32) (x1 : Vec F S512x256 .f32) (x2 : Vec F S512x256 .f32) (x3 : Vec F S2048x512 .i32) :
    sout0_A_2 c i arg2 harg2 arg3 harg3 arg4 harg4 arg5 harg5 arg6 harg6 arg7 harg7 arg8 harg8 arg9 harg9 arg10 harg10 hc0 hc1 x0 x1 x2 x3 = k0_pay1 (k0_pay10 (k0_pay7 x0) x1 x3 (k0_pay4 (F := F))) (k0_pay13 (k0_pay7 x0) x1 x3 (k0_pay4 (F := F)) x2) (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x256) hz]
  simp only [View.readAt_eq_ld, harg2.read_unread, harg3.read_unread, harg4.read_unread, harg5.read_unread, harg6.read_unread, harg7.read_unread, harg8.read_unread, harg9.read_unread, harg10.read_unread, View.ld_unit_zero (S := S2048x256) hz, View.ld_unit_zero (S := S512x256) hz, View.ld_unit_zero (S := S2048x512) hz, View.ld_unit_zero (S := S2048x1) hz, View.readCov_unit_zero (S := S2048x256) _ hz, View.readCov_unit_zero (S := S2048x1) _ hz]

/-- First tile, cached query tile: the scaled query block. -/
theorem sA3 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2048x512 .i32) (harg5 : arg5.IsWhole) (arg6 : Memref sig .tc .vmem S2048x256 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (arg10 : Memref sig .tc .vmem S2048x256 .bf16) (harg10 : arg10.IsWhole) (hc0 : cond0_0 i) (hc1 : ¬cond0_1 i) (x0 : Vec F S2048x256 .f32) (x1 : Vec F S512x256 .f32) (x2 : Vec F S512x256 .f32) (x3 : Vec F S2048x512 .i32) :
    sout0_A_3 c i arg2 harg2 arg3 harg3 arg4 harg4 arg5 harg5 arg6 harg6 arg7 harg7 arg8 harg8 arg9 harg9 arg10 harg10 hc0 hc1 x0 x1 x2 x3 = k0_pay7 x0 := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S2048x256) hz, View.ld_unit_zero (S := S512x256) hz, View.ld_unit_zero (S := S2048x512) hz, View.ld_unit_zero (S := S2048x1) hz, View.readCov_unit_zero (S := S2048x256) _ hz, View.readCov_unit_zero (S := S2048x1) _ hz]

/-- A middle tile, running maximum: the update from what the previous point left. -/
theorem sB0 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2048x512 .i32) (harg5 : arg5.IsWhole) (arg6 : Memref sig .tc .vmem S2048x256 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : ¬cond0_1 i) (x0 : Vec F S2048x256 .f32) (x1 : Vec F S512x256 .f32) (x2 : Vec F S512x256 .f32) (x3 : Vec F S2048x512 .i32) (xs0 : Vec F S2048x1 .f32) (xs1 : Vec F S2048x1 .f32) (xs2 : Vec F S2048x256 .f32) (xs3 : Vec F S2048x256 .bf16) :
    sout0_B_0 c i arg2 harg2 arg3 harg3 arg4 harg4 arg5 harg5 arg6 harg6 arg7 harg7 arg8 harg8 arg9 harg9 arg10 harg10 hc0 hc1 x0 x1 x2 x3 xs0 xs1 xs2 xs3 = k0_pay2 (k0_pay9 xs3 x1 x3 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S2048x256) hz, View.ld_unit_zero (S := S512x256) hz, View.ld_unit_zero (S := S2048x512) hz, View.ld_unit_zero (S := S2048x1) hz]

/-- A middle tile, denominator: the update from what the previous point left. -/
theorem sB1 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2048x512 .i32) (harg5 : arg5.IsWhole) (arg6 : Memref sig .tc .vmem S2048x256 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : ¬cond0_1 i) (x0 : Vec F S2048x256 .f32) (x1 : Vec F S512x256 .f32) (x2 : Vec F S512x256 .f32) (x3 : Vec F S2048x512 .i32) (xs0 : Vec F S2048x1 .f32) (xs1 : Vec F S2048x1 .f32) (xs2 : Vec F S2048x256 .f32) (xs3 : Vec F S2048x256 .bf16) :
    sout0_B_1 c i arg2 harg2 arg3 harg3 arg4 harg4 arg5 harg5 arg6 harg6 arg7 harg7 arg8 harg8 arg9 harg9 arg10 harg10 hc0 hc1 x0 x1 x2 x3 xs0 xs1 xs2 xs3 = k0_pay12 xs3 x1 x3 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S2048x256) hz, View.ld_unit_zero (S := S512x256) hz, View.ld_unit_zero (S := S2048x512) hz, View.ld_unit_zero (S := S2048x1) hz]

/-- A middle tile, numerator: the update from what the previous point left. -/
theorem sB2 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2048x512 .i32) (harg5 : arg5.IsWhole) (arg6 : Memref sig .tc .vmem S2048x256 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : ¬cond0_1 i) (x0 : Vec F S2048x256 .f32) (x1 : Vec F S512x256 .f32) (x2 : Vec F S512x256 .f32) (x3 : Vec F S2048x512 .i32) (xs0 : Vec F S2048x1 .f32) (xs1 : Vec F S2048x1 .f32) (xs2 : Vec F S2048x256 .f32) (xs3 : Vec F S2048x256 .bf16) :
    sout0_B_2 c i arg2 harg2 arg3 harg3 arg4 harg4 arg5 harg5 arg6 harg6 arg7 harg7 arg8 harg8 arg9 harg9 arg10 harg10 hc0 hc1 x0 x1 x2 x3 xs0 xs1 xs2 xs3 = k0_pay1 (k0_pay10 xs3 x1 x3 xs0) (k0_pay13 xs3 x1 x3 xs0 x2) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S2048x256) hz, View.ld_unit_zero (S := S512x256) hz, View.ld_unit_zero (S := S2048x512) hz, View.ld_unit_zero (S := S2048x1) hz]

/-- Last tile, running maximum: the update from what the previous point left. -/
theorem sC0 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2048x512 .i32) (harg5 : arg5.IsWhole) (arg6 : Memref sig .tc .vmem S2048x256 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : cond0_1 i) (x0 : Vec F S2048x256 .f32) (x1 : Vec F S512x256 .f32) (x2 : Vec F S512x256 .f32) (x3 : Vec F S2048x512 .i32) (xs0 : Vec F S2048x1 .f32) (xs1 : Vec F S2048x1 .f32) (xs2 : Vec F S2048x256 .f32) (xs3 : Vec F S2048x256 .bf16) :
    sout0_C_0 c i arg2 harg2 arg3 harg3 arg4 harg4 arg5 harg5 arg6 harg6 arg7 harg7 arg8 harg8 arg9 harg9 arg10 harg10 hc0 hc1 x0 x1 x2 x3 xs0 xs1 xs2 xs3 = k0_pay2 (k0_pay9 xs3 x1 x3 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S2048x256) hz, View.ld_unit_zero (S := S512x256) hz, View.ld_unit_zero (S := S2048x512) hz, View.ld_unit_zero (S := S2048x1) hz]

/-- Last tile, denominator: the update from what the previous point left. -/
theorem sC1 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2048x512 .i32) (harg5 : arg5.IsWhole) (arg6 : Memref sig .tc .vmem S2048x256 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : cond0_1 i) (x0 : Vec F S2048x256 .f32) (x1 : Vec F S512x256 .f32) (x2 : Vec F S512x256 .f32) (x3 : Vec F S2048x512 .i32) (xs0 : Vec F S2048x1 .f32) (xs1 : Vec F S2048x1 .f32) (xs2 : Vec F S2048x256 .f32) (xs3 : Vec F S2048x256 .bf16) :
    sout0_C_1 c i arg2 harg2 arg3 harg3 arg4 harg4 arg5 harg5 arg6 harg6 arg7 harg7 arg8 harg8 arg9 harg9 arg10 harg10 hc0 hc1 x0 x1 x2 x3 xs0 xs1 xs2 xs3 = k0_pay12 xs3 x1 x3 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S2048x256) hz, View.ld_unit_zero (S := S512x256) hz, View.ld_unit_zero (S := S2048x512) hz, View.ld_unit_zero (S := S2048x1) hz]

/-- Last tile, numerator: the update from what the previous point left. -/
theorem sC2 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2048x512 .i32) (harg5 : arg5.IsWhole) (arg6 : Memref sig .tc .vmem S2048x256 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : cond0_1 i) (x0 : Vec F S2048x256 .f32) (x1 : Vec F S512x256 .f32) (x2 : Vec F S512x256 .f32) (x3 : Vec F S2048x512 .i32) (xs0 : Vec F S2048x1 .f32) (xs1 : Vec F S2048x1 .f32) (xs2 : Vec F S2048x256 .f32) (xs3 : Vec F S2048x256 .bf16) :
    sout0_C_2 c i arg2 harg2 arg3 harg3 arg4 harg4 arg5 harg5 arg6 harg6 arg7 harg7 arg8 harg8 arg9 harg9 arg10 harg10 hc0 hc1 x0 x1 x2 x3 xs0 xs1 xs2 xs3 = k0_pay1 (k0_pay10 xs3 x1 x3 xs0) (k0_pay13 xs3 x1 x3 xs0 x2) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S2048x256) hz, View.ld_unit_zero (S := S512x256) hz, View.ld_unit_zero (S := S2048x512) hz, View.ld_unit_zero (S := S2048x1) hz]

/-- Last tile, output block: the numerator just stored divided by the denominator just stored. -/
theorem oC4 (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S2048x512 .i32) (harg5 : arg5.IsWhole) (arg6 : Memref sig .tc .vmem S2048x256 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : cond0_1 i) (x0 : Vec F S2048x256 .f32) (x1 : Vec F S512x256 .f32) (x2 : Vec F S512x256 .f32) (x3 : Vec F S2048x512 .i32) (xs0 : Vec F S2048x1 .f32) (xs1 : Vec F S2048x1 .f32) (xs2 : Vec F S2048x256 .f32) (xs3 : Vec F S2048x256 .bf16) :
    out0_C_4 c i arg2 harg2 arg3 harg3 arg4 harg4 arg5 harg5 arg6 harg6 arg7 harg7 arg8 harg8 arg9 harg9 arg10 harg10 hc0 hc1 x0 x1 x2 x3 xs0 xs1 xs2 xs3
      = k0_pay3 (k0_pay1 (k0_pay10 xs3 x1 x3 xs0) (k0_pay13 xs3 x1 x3 xs0 x2) xs2) (k0_pay12 xs3 x1 x3 xs0 xs1) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S2048x256) hz, View.ld_unit_zero (S := S512x256) hz, View.ld_unit_zero (S := S2048x512) hz, View.ld_unit_zero (S := S2048x1) hz, View.readCov_unit_zero (S := S2048x256) _ hz, View.readCov_unit_zero (S := S2048x1) _ hz]

end Cert.KernelIdeal.Pieces
end
-- ==== Proof.Comps.lean ====
/-
  What the carried buffers hold after a grid point, as the body's arithmetic of the point's blocks.

  At a first-tile point the three accumulators and the cached query tile are functions of the point's four blocks
  alone; at every other point they are the update of what the previous point left, and the cached query tile is
  unchanged; at a last-tile point the output block is the quotient of the updated numerator and denominator.
-/
import proofs.«422734_j67654324847232_3_alg».proof.Proof.Gen.KernelIdeal.Frame
import proofs.«422734_j67654324847232_3_alg».proof.Proof.Pieces

noncomputable section
open Idealize.ShloMosaic Idealize.ShloMosaic.TcCoe Idealize.SL.Sem

namespace Cert.KernelIdeal.Comps
open Cert.KernelIdeal Cert.KernelIdeal.Gen
variable {F : FTy → Type} [FloatOps F]
variable (m : (ℓ : Loc nD τ sig) → Buf (Elt F) ℓ)

/-- The four input blocks at a point, at their literal types. -/
abbrev qB (c : Dev nD) (t : Fin cfg0.N) : Vec F S2048x256 .f32 := iblk m c 0 t
abbrev kB (c : Dev nD) (t : Fin cfg0.N) : Vec F S512x256 .f32 := iblk m c 1 t
abbrev vB (c : Dev nD) (t : Fin cfg0.N) : Vec F S512x256 .f32 := iblk m c 2 t
abbrev mB (c : Dev nD) (t : Fin cfg0.N) : Vec F S2048x512 .i32 := iblk m c 3 t

/-- What the running maximum, the denominator, the numerator and the cached query tile hold after point `n`. -/
abbrev mS (c : Dev nD) (n : ℕ) (hn : n < cfg0.N) : Vec F S2048x1 .f32 := (outsAt0 m c n hn).2.1
abbrev lS (c : Dev nD) (n : ℕ) (hn : n < cfg0.N) : Vec F S2048x1 .f32 := (outsAt0 m c n hn).2.2.1
abbrev aS (c : Dev nD) (n : ℕ) (hn : n < cfg0.N) : Vec F S2048x256 .f32 := (outsAt0 m c n hn).2.2.2.1
abbrev qS (c : Dev nD) (n : ℕ) (hn : n < cfg0.N) : Vec F S2048x256 .bf16 := (outsAt0 m c n hn).2.2.2.2
/-- What the output block holds after point `n`. -/
abbrev oS (c : Dev nD) (n : ℕ) (hn : n < cfg0.N) : Vec F S2048x256 .f32 := (outsAt0 m c n hn).1

/-! ## A first-tile point -/

theorem mS_A (c : Dev nD) (t : Fin cfg0.N) (h0 : t.val % 16 = 0) (h1 : ¬t.val % 16 = 15) :
    mS m c t.val t.isLt = k0_pay2 (k0_pay9 (k0_pay7 (qB m c t)) (kB m c t) (mB m c t) (k0_pay4 (F := F))) := by
  show (outsAt0 m c t.val t.isLt).2.1 = _
  rw [outsAt0_A m c t h0 h1]; dsimp only
  exact Pieces.sA0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

theorem lS_A (c : Dev nD) (t : Fin cfg0.N) (h0 : t.val % 16 = 0) (h1 : ¬t.val % 16 = 15) :
    lS m c t.val t.isLt = k0_pay12 (k0_pay7 (qB m c t)) (kB m c t) (mB m c t) (k0_pay4 (F := F)) (k0_pay5 (F := F)) := by
  show (outsAt0 m c t.val t.isLt).2.2.1 = _
  rw [outsAt0_A m c t h0 h1]; dsimp only
  exact Pieces.sA1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

theorem aS_A (c : Dev nD) (t : Fin cfg0.N) (h0 : t.val % 16 = 0) (h1 : ¬t.val % 16 = 15) :
    aS m c t.val t.isLt = k0_pay1 (k0_pay10 (k0_pay7 (qB m c t)) (kB m c t) (mB m c t) (k0_pay4 (F := F)))
      (k0_pay13 (k0_pay7 (qB m c t)) (kB m c t) (mB m c t) (k0_pay4 (F := F)) (vB m c t)) (k0_pay6 (F := F)) := by
  show (outsAt0 m c t.val t.isLt).2.2.2.1 = _
  rw [outsAt0_A m c t h0 h1]; dsimp only
  exact Pieces.sA2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

theorem qS_A (c : Dev nD) (t : Fin cfg0.N) (h0 : t.val % 16 = 0) (h1 : ¬t.val % 16 = 15) :
    qS m c t.val t.isLt = k0_pay7 (qB m c t) := by
  show (outsAt0 m c t.val t.isLt).2.2.2.2 = _
  rw [outsAt0_A m c t h0 h1]; dsimp only
  exact Pieces.sA3 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

/-! ## A later point: the update of what the point before left -/

theorem mS_B (c : Dev nD) (t : Fin cfg0.N) (h0 : ¬t.val % 16 = 0) (h1 : ¬t.val % 16 = 15) :
    mS m c t.val t.isLt = k0_pay2 (k0_pay9 (qS m c (t.val - 1) (Nat.lt_of_le_of_lt (Nat.sub_le _ _) t.isLt)) (kB m c t) (mB m c t) (mS m c (t.val - 1) (Nat.lt_of_le_of_lt (Nat.sub_le _ _) t.isLt))) := by
  show (outsAt0 m c t.val t.isLt).2.1 = _
  rw [outsAt0_B m c t h0 h1]; dsimp only
  exact Pieces.sB0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem lS_B (c : Dev nD) (t : Fin cfg0.N) (h0 : ¬t.val % 16 = 0) (h1 : ¬t.val % 16 = 15) :
    lS m c t.val t.isLt = k0_pay12 (qS m c (t.val - 1) (Nat.lt_of_le_of_lt (Nat.sub_le _ _) t.isLt)) (kB m c t) (mB m c t) (mS m c (t.val - 1) (Nat.lt_of_le_of_lt (Nat.sub_le _ _) t.isLt)) (lS m c (t.val - 1) (Nat.lt_of_le_of_lt (Nat.sub_le _ _) t.isLt)) := by
  show (outsAt0 m c t.val t.isLt).2.2.1 = _
  rw [outsAt0_B m c t h0 h1]; dsimp only
  exact Pieces.sB1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem aS_B (c : Dev nD) (t : Fin cfg0.N) (h0 : ¬t.val % 16 = 0) (h1 : ¬t.val % 16 = 15) :
    aS m c t.val t.isLt = k0_pay1 (k0_pay10 (qS m c (t.val - 1) (Nat.lt_of_le_of_lt (Nat.sub_le _ _) t.isLt)) (kB m c t) (mB m c t) (mS m c (t.val - 1) (Nat.lt_of_le_of_lt (Nat.sub_le _ _) t.isLt)))
      (k0_pay13 (qS m c (t.val - 1) (Nat.lt_of_le_of_lt (Nat.sub_le _ _) t.isLt)) (kB m c t) (mB m c t) (mS m c (t.val - 1) (Nat.lt_of_le_of_lt (Nat.sub_le _ _) t.isLt)) (vB m c t)) (aS m c (t.val - 1) (Nat.lt_of_le_of_lt (Nat.sub_le _ _) t.isLt)) := by
  show (outsAt0 m c t.val t.isLt).2.2.2.1 = _
  rw [outsAt0_B m c t h0 h1]; dsimp only
  exact Pieces.sB2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem qS_B (c : Dev nD) (t : Fin cfg0.N) (h0 : ¬t.val % 16 = 0) (h1 : ¬t.val % 16 = 15) :
    qS m c t.val t.isLt = (qS m c (t.val - 1) (Nat.lt_of_le_of_lt (Nat.sub_le _ _) t.isLt)) := by
  show (outsAt0 m c t.val t.isLt).2.2.2.2 = _
  rw [outsAt0_B m c t h0 h1]; dsimp only
  rfl

theorem mS_C (c : Dev nD) (t : Fin cfg0.N) (h0 : ¬t.val % 16 = 0) (h1 : t.val % 16 = 15) :
    mS m c t.val t.isLt = k0_pay2 (k0_pay9 (qS m c (t.val - 1) (Nat.lt_of_le_of_lt (Nat.sub_le _ _) t.isLt)) (kB m c t) (mB m c t) (mS m c (t.val - 1) (Nat.lt_of_le_of_lt (Nat.sub_le _ _) t.isLt))) := by
  show (outsAt0 m c t.val t.isLt).2.1 = _
  rw [outsAt0_C m c t h0 h1]; dsimp only
  exact Pieces.sC0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem lS_C (c : Dev nD) (t : Fin cfg0.N) (h0 : ¬t.val % 16 = 0) (h1 : t.val % 16 = 15) :
    lS m c t.val t.isLt = k0_pay12 (qS m c (t.val - 1) (Nat.lt_of_le_of_lt (Nat.sub_le _ _) t.isLt)) (kB m c t) (mB m c t) (mS m c (t.val - 1) (Nat.lt_of_le_of_lt (Nat.sub_le _ _) t.isLt)) (lS m c (t.val - 1) (Nat.lt_of_le_of_lt (Nat.sub_le _ _) t.isLt)) := by
  show (outsAt0 m c t.val t.isLt).2.2.1 = _
  rw [outsAt0_C m c t h0 h1]; dsimp only
  exact Pieces.sC1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem aS_C (c : Dev nD) (t : Fin cfg0.N) (h0 : ¬t.val % 16 = 0) (h1 : t.val % 16 = 15) :
    aS m c t.val t.isLt = k0_pay1 (k0_pay10 (qS m c (t.val - 1) (Nat.lt_of_le_of_lt (Nat.sub_le _ _) t.isLt)) (kB m c t) (mB m c t) (mS m c (t.val - 1) (Nat.lt_of_le_of_lt (Nat.sub_le _ _) t.isLt)))
      (k0_pay13 (qS m c (t.val - 1) (Nat.lt_of_le_of_lt (Nat.sub_le _ _) t.isLt)) (kB m c t) (mB m c t) (mS m c (t.val - 1) (Nat.lt_of_le_of_lt (Nat.sub_le _ _) t.isLt)) (vB m c t)) (aS m c (t.val - 1) (Nat.lt_of_le_of_lt (Nat.sub_le _ _) t.isLt)) := by
  show (outsAt0 m c t.val t.isLt).2.2.2.1 = _
  rw [outsAt0_C m c t h0 h1]; dsimp only
  exact Pieces.sC2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem qS_C (c : Dev nD) (t : Fin cfg0.N) (h0 : ¬t.val % 16 = 0) (h1 : t.val % 16 = 15) :
    qS m c t.val t.isLt = (qS m c (t.val - 1) (Nat.lt_of_le_of_lt (Nat.sub_le _ _) t.isLt)) := by
  show (outsAt0 m c t.val t.isLt).2.2.2.2 = _
  rw [outsAt0_C m c t h0 h1]; dsimp only
  rfl

/-! ## A last-tile point: the output block -/

theorem oS_C (c : Dev nD) (t : Fin cfg0.N) (h0 : ¬t.val % 16 = 0) (h1 : t.val % 16 = 15) :
    oS m c t.val t.isLt = k0_pay3 (aS m c t.val t.isLt) (lS m c t.val t.isLt) := by
  rw [aS_C m c t h0 h1, lS_C m c t h0 h1]
  show (outsAt0 m c t.val t.isLt).1 = _
  rw [outsAt0_C m c t h0 h1]; dsimp only
  exact Pieces.oC4 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

end Cert.KernelIdeal.Comps
end
-- ==== Proof.Spec.lean ====
/-
  Masked softmax attention over 8192 queries and 8192 keys of width 256, as plain functions.

  Three layers, none of which mentions a program.

  * The real-number statement. For real arrays `Q K V` and a Boolean mask `b`, the score of query `q` against key `k`
    is `(∑ d, Q q d · K k d) · (1/16)` where the mask admits the pair and the fixed sentinel elsewhere; the result at
    `(q, d)` is the softmax-weighted average `(∑ k, exp (s q k) · V k d) / (∑ k, exp (s q k))`. The average is written
    with NO shift subtracted inside the exponentials: both the one-pass form (shift by the row maximum) and the
    streamed form (shift by a running maximum) equal it, because a common shift cancels between numerator and
    denominator.
  * The keys cut into 16 tiles of 512: `tk j c` is key `512 · j + c`, and `Lsum` / `Asum` are the denominator and
    numerator accumulated over the first `n` tiles with a shift `μ` subtracted.
  * One streamed step on a tile, over the extended reals, exactly as a float program read at exact arithmetic
    computes it: the tile's masked scores, the new running maximum, the rescaling factor, the tile's weights, and the
    updated denominator and numerator.
-/
import Idealize.ShloMosaic.PureOps.Ideal
import Idealize.ShloMosaic.PureOps.Ideal.Laws
import Idealize.ShloMosaic.Lib.ValueIdx
import Mathlib.Analysis.SpecialFunctions.Exp

noncomputable section

namespace Cert.Attn

open Idealize.ShloMosaic Idealize.ShloMosaic.ValueIdx

/-! ## The real-number statement -/

/-- The sentinel written where the mask excludes a pair, as an extended real (the pattern of `-1e30`). -/
def NEG : EReal := Ideal.ofBits .f32 0xF149F2CA#32

/-- The scale `1/16 = 1/√256`, as an extended real (the pattern of `0.0625`). -/
def SCALE : EReal := Ideal.ofBits .f32 0x3D800000#32

/-- The sentinel as a real number. -/
def negR : ℝ := NEG.toReal

/-- The scaled, masked score of query `q` against key `k`. -/
def score (Q K : Fin 8192 → Fin 256 → ℝ) (b : Fin 8192 → Fin 8192 → Bool) (q k : Fin 8192) : ℝ :=
  if b q k then (∑ d : Fin 256, Q q d * K k d) * (1 / 16) else negR

/-- The softmax-weighted average of the value rows, for a row of scores `s`. -/
def attn (s : Fin 8192 → ℝ) (V : Fin 8192 → Fin 256 → ℝ) (d : Fin 256) : ℝ :=
  (∑ k : Fin 8192, Real.exp (s k) * V k d) / (∑ k : Fin 8192, Real.exp (s k))

/-- An array of extended reals all of whose entries are reals. -/
def IsReal {S : Shape} (X : S.Idx → EReal) : Prop := ∀ i, ∃ r : ℝ, X i = (r : EReal)

/-- The real entries of a `[8192, 256]` array. -/
def realOf (X : (⟨2, ![8192, 256]⟩ : Shape).Idx → EReal) (a : Fin 8192) (d : Fin 256) : ℝ := (X (ix2 a d)).toReal

theorem IsReal.eq_realOf {X : (⟨2, ![8192, 256]⟩ : Shape).Idx → EReal} (h : IsReal X) (a : Fin 8192) (d : Fin 256) :
    X (ix2 a d) = ((realOf X a d : ℝ) : EReal) := by
  obtain ⟨r, hr⟩ := h (ix2 a d)
  unfold realOf; rw [hr]; rfl

/-- A one-bit mask array as a Boolean function. -/
def maskOf (M : (⟨2, ![8192, 8192]⟩ : Shape).Idx → BitVec 1) (q k : Fin 8192) : Bool := M (ix2 q k) == 1#1

/-- The whole result array: entry `(q, d)` is the attention average of row `q`'s scores. -/
def G (Q K V : (⟨2, ![8192, 256]⟩ : Shape).Idx → EReal) (M : (⟨2, ![8192, 8192]⟩ : Shape).Idx → BitVec 1) :
    (⟨2, ![8192, 256]⟩ : Shape).Idx → EReal :=
  fun i => ((attn (score (realOf Q) (realOf K) (maskOf M) ⟨(i 0).val, (i 0).isLt⟩) (realOf V) ⟨(i 1).val, (i 1).isLt⟩ : ℝ) : EReal)

theorem G_ix2 (Q K V : (⟨2, ![8192, 256]⟩ : Shape).Idx → EReal) (M : (⟨2, ![8192, 8192]⟩ : Shape).Idx → BitVec 1)
    (q : Fin 8192) (d : Fin 256) :
    G Q K V M (ix2 q d) = ((attn (score (realOf Q) (realOf K) (maskOf M) q) (realOf V) d : ℝ) : EReal) := rfl

/-! ## Keys in 16 tiles of 512 -/

/-- Key `c` of tile `j`. (Total in `j`; only `j < 16` is used.) -/
def tk (j : ℕ) (c : Fin 512) : Fin 8192 := ⟨(512 * j + c.val) % 8192, Nat.mod_lt _ (by norm_num)⟩

theorem tk_val {j : ℕ} (hj : j < 16) (c : Fin 512) : (tk j c).val = 512 * j + c.val := by
  have := c.isLt
  show (512 * j + c.val) % 8192 = _
  exact Nat.mod_eq_of_lt (by omega)

/-- The denominator over the first `n` tiles, with the shift `μ` subtracted. -/
def Lsum (s : Fin 8192 → ℝ) (n : ℕ) (μ : ℝ) : ℝ :=
  ∑ j ∈ Finset.range n, ∑ c : Fin 512, Real.exp (s (tk j c) - μ)

/-- The numerator over the first `n` tiles, with the shift `μ` subtracted. -/
def Asum (s v : Fin 8192 → ℝ) (n : ℕ) (μ : ℝ) : ℝ :=
  ∑ j ∈ Finset.range n, ∑ c : Fin 512, Real.exp (s (tk j c) - μ) * v (tk j c)

/-! ## One streamed step on a tile, over the extended reals -/

section Tile

variable (qs : Fin 2048 → Fin 256 → EReal) (ks vs : Fin 512 → Fin 256 → EReal) (mk : Fin 2048 → Fin 512 → BitVec 32)
  (mprev lprev : Fin 2048 → EReal) (aprev : Fin 2048 → Fin 256 → EReal)

/-- The cached query tile: the queries times the scale. -/
def tQ (x : Fin 2048 → Fin 256 → EReal) (r : Fin 2048) (d : Fin 256) : EReal := x r d * SCALE

/-- The tile's masked scores: the dot product where the widened mask word is not zero, the sentinel elsewhere. -/
def tScore (r : Fin 2048) (c : Fin 512) : EReal :=
  if mk r c = 0#32 then NEG else ∑ d : Fin 256, qs r d * ks c d

/-- The new running maximum: the old one against the tile's row maximum folded from `-∞`. -/
def tMax (r : Fin 2048) : EReal :=
  max (mprev r) ((Finset.univ : Finset (Fin 512)).fold max (⊥ : EReal) (fun c => tScore qs ks mk r c))

/-- The factor that rescales what was accumulated under the old maximum. -/
def tAlpha (r : Fin 2048) : EReal := Ideal.exp (mprev r - tMax qs ks mk mprev r)

/-- The tile's weights under the new maximum. -/
def tP (r : Fin 2048) (c : Fin 512) : EReal := Ideal.exp (tScore qs ks mk r c - tMax qs ks mk mprev r)

/-- The updated denominator. -/
def tL (r : Fin 2048) : EReal := tAlpha qs ks mk mprev r * lprev r + ∑ c : Fin 512, tP qs ks mk mprev r c

/-- The updated numerator. -/
def tAcc (r : Fin 2048) (d : Fin 256) : EReal :=
  tAlpha qs ks mk mprev r * aprev r d + ∑ c : Fin 512, tP qs ks mk mprev r c * vs c d

end Tile

end Cert.Attn

end
-- ==== Proof.Blocks.lean ====
/-
  The windows' blocks as pieces of the argument arrays.

  Grid point `t` of the 4 × 16 grid is query tile `t / 16` and key tile `t % 16`. There the query window holds rows
  `2048 · (t / 16) + r` of the query array, the key and value windows rows `512 · (t % 16) + c` of theirs, and the
  mask window the entries at those rows and columns of the mask, each widened from one bit to a word before the
  region starts (so a word is zero exactly when its bit is not set). The output window's block at `t` is rows
  `2048 · (t / 16) + r` of the result.
-/
import proofs.«422734_j67654324847232_3_alg».proof.Proof.Gen.KernelIdeal.Frame
import proofs.«422734_j67654324847232_3_alg».proof.Proof.Spec
import Idealize.ShloMosaic.Lib.Pipeline.Value
import Idealize.ShloMosaic.Lib.ValueIdx
import Idealize.ShloMosaic.Lib.StableHlo.Run

noncomputable section
open Idealize.ShloMosaic Idealize.ShloMosaic.TcCoe Idealize.SL.Sem Idealize.ShloMosaic.ValueIdx

namespace Cert.Attn

/-- Query row `r` of query tile `i`. (Total in `i`; only `i < 4` is used.) -/
def tq (i : ℕ) (r : Fin 2048) : Fin 8192 := ⟨(2048 * i + r.val) % 8192, Nat.mod_lt _ (by norm_num)⟩

theorem tq_val {i : ℕ} (hi : i < 4) (r : Fin 2048) : (tq i r).val = 2048 * i + r.val := by
  have := r.isLt
  show (2048 * i + r.val) % 8192 = _
  exact Nat.mod_eq_of_lt (by omega)

/-- A one-bit word widened to 32 bits is zero exactly when the bit is not set. -/
theorem setWidth_eq_zero_iff (b : BitVec 1) : b.setWidth 32 = 0#32 ↔ ¬ b = 1#1 := by
  revert b; decide

end Cert.Attn

namespace Cert.KernelIdeal.Blocks
open Cert.KernelIdeal Cert.KernelIdeal.Gen Cert.Attn
variable {F : FTy → Type} [FloatOps F]
variable (m : (ℓ : Loc nD τ sig) → Buf (Elt F) ℓ)

/-! ## The index maps over the grid -/

theorem idx0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem idx1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
theorem idx2 : ∀ t : Fin cfg0.N, win0_2.index t (0 : Fin 2) = t.val % 16 ∧ win0_2.index t (1 : Fin 2) = 0 :=
  (by decide +kernel : ∀ t : Fin grid0.N, win0_2.index t (0 : Fin 2) = t.val % 16 ∧ win0_2.index t (1 : Fin 2) = 0)
theorem idx3 : ∀ t : Fin cfg0.N, win0_3.index t (0 : Fin 2) = t.val / 16 ∧ win0_3.index t (1 : Fin 2) = t.val % 16 :=
  (by decide +kernel : ∀ t : Fin grid0.N, win0_3.index t (0 : Fin 2) = t.val / 16 ∧ win0_3.index t (1 : Fin 2) = t.val % 16)
theorem idx4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

/-! ## The input blocks -/

/-- The query block: rows `2048 · (t / 16) + r` of the query array. -/
theorem qblk_apply (c : Dev nD) (t : Fin cfg0.N) (r : Fin 2048) (d : Fin 256) :
    (iblk m c 0 t : Vec F S2048x256 .f32) (ix2 r d) = m ((c : Thread nD τ).loc main_arg2) (ix2 (tq (t.val / 16) r) d) := by
  have hN : t.val < 64 := lt_of_lt_of_eq t.isLt (show cfg0.N = 64 from N_0)
  unfold iblk
  rw [View.read_apply]
  show V m c main_arg2 _ = m (c.tc.loc main_arg2) _
  refine (congrFun (V_main_arg2 m c) _).trans ?_
  congr 1
  funext a
  apply Fin.ext
  match a with
  | ⟨0, _⟩ =>
    show win0_0.index t 0 * 2048 + 1 * r.val = (tq (t.val / 16) r).val
    rw [(idx0 t).1, tq_val (by omega)]; omega
  | ⟨1, _⟩ =>
    show win0_0.index t 1 * 256 + 1 * d.val = d.val
    rw [(idx0 t).2]; omega

/-- The key block: rows `512 · (t % 16) + k` of the key array. -/
theorem kblk_apply (c : Dev nD) (t : Fin cfg0.N) (k : Fin 512) (d : Fin 256) :
    (iblk m c 1 t : Vec F S512x256 .f32) (ix2 k d) = m ((c : Thread nD τ).loc main_arg0) (ix2 (tk (t.val % 16) k) d) := by
  have hN : t.val < 64 := lt_of_lt_of_eq t.isLt (show cfg0.N = 64 from N_0)
  unfold iblk
  rw [View.read_apply]
  show V m c main_arg0 _ = m (c.tc.loc main_arg0) _
  refine (congrFun (V_main_arg0 m c) _).trans ?_
  congr 1
  funext a
  apply Fin.ext
  match a with
  | ⟨0, _⟩ =>
    show win0_1.index t 0 * 512 + 1 * k.val = (tk (t.val % 16) k).val
    rw [(idx1 t).1, tk_val (by omega)]; omega
  | ⟨1, _⟩ =>
    show win0_1.index t 1 * 256 + 1 * d.val = d.val
    rw [(idx1 t).2]; omega

/-- The value block: rows `512 · (t % 16) + k` of the value array. -/
theorem vblk_apply (c : Dev nD) (t : Fin cfg0.N) (k : Fin 512) (d : Fin 256) :
    (iblk m c 2 t : Vec F S512x256 .f32) (ix2 k d) = m ((c : Thread nD τ).loc main_arg1) (ix2 (tk (t.val % 16) k) d) := by
  have hN : t.val < 64 := lt_of_lt_of_eq t.isLt (show cfg0.N = 64 from N_0)
  unfold iblk
  rw [View.read_apply]
  show V m c main_arg1 _ = m (c.tc.loc main_arg1) _
  refine (congrFun (V_main_arg1 m c) _).trans ?_
  congr 1
  funext a
  apply Fin.ext
  match a with
  | ⟨0, _⟩ =>
    show win0_2.index t 0 * 512 + 1 * k.val = (tk (t.val % 16) k).val
    rw [(idx2 t).1, tk_val (by omega)]; omega
  | ⟨1, _⟩ =>
    show win0_2.index t 1 * 256 + 1 * d.val = d.val
    rw [(idx2 t).2]; omega

/-- The widened mask the region finds: every bit of the mask argument as a word. -/
theorem V_mask (c : Dev nD) :
    (V m c main_v0 : IVec S8192x8192 32) = extui 32 (m ((c : Thread nD τ).loc main_arg3)) natLt_1_32 := by
  dsimp only [V, hostOps0]
  after_results

/-- The mask block: the mask bit at row `2048 · (t / 16) + r` and column `512 · (t % 16) + k`, as a word. -/
theorem mblk_apply (c : Dev nD) (t : Fin cfg0.N) (r : Fin 2048) (k : Fin 512) :
    (iblk m c 3 t : Vec F S2048x512 .i32) (ix2 r k)
      = (m ((c : Thread nD τ).loc main_arg3) (ix2 (tq (t.val / 16) r) (tk (t.val % 16) k))).setWidth 32 := by
  have hN : t.val < 64 := lt_of_lt_of_eq t.isLt (show cfg0.N = 64 from N_0)
  unfold iblk
  rw [View.read_apply]
  show V m c main_v0 _ = _
  refine (congrFun (V_mask m c) _).trans ?_
  rw [extui_apply]
  congr 2
  funext a
  apply Fin.ext
  match a with
  | ⟨0, _⟩ =>
    show win0_3.index t 0 * 2048 + 1 * r.val = (tq (t.val / 16) r).val
    rw [(idx3 t).1, tq_val (by omega)]; omega
  | ⟨1, _⟩ =>
    show win0_3.index t 1 * 512 + 1 * k.val = (tk (t.val % 16) k).val
    rw [(idx3 t).2, tk_val (by omega)]; omega

end Cert.KernelIdeal.Blocks
end
-- ==== Proof.LibERealRows.lean ====
/-
  General facts about rows of real numbers inside the extended reals, as float programs read at exact arithmetic
  meet them.

  * The patterns of `-∞`, `+∞` and `1.0` denote `⊥`, `⊤` and `1`.
  * An extended real whose absolute value `max x (−x)` compares below `+∞` is a real.
  * A finite sum of coerced reals is the coerced sum; a finite sum of products of reals is a real.
  * The maximum of a nonempty row of reals, folded from `-∞`, is a real.
  * A softmax does not see a common shift: for a real row `s` and a real `M`,
    `exp (s j − M) / Σ exp (s i − M) = exp (s j) · (1 / Σ exp (s i))`, the quotient and the product with the reciprocal
    being the same because both sums are positive reals.
-/
import Idealize.ShloMosaic.PureOps.Ideal
import Idealize.ShloMosaic.PureOps.Ideal.Laws
import Mathlib.Analysis.SpecialFunctions.Exp

noncomputable section

namespace Cert.ERealRows

open Idealize.ShloMosaic

/-! ## Float literals as extended reals -/

/-- The pattern of `-∞` denotes the bottom element. -/
theorem ofBits_negInf : Ideal.ofBits .f32 0xFF800000#32 = ⊥ := by
  simp [Ideal.ofBits, Ideal.ieee]

/-- The pattern of `+∞` denotes the top element. -/
theorem ofBits_posInf : Ideal.ofBits .f32 0x7F800000#32 = ⊤ := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- An extended real whose absolute value compares below `+∞` is a real: `max x (−x)` is `+∞` at both infinities. -/
theorem real_of_abs_lt_inf (x : EReal) (h : Ideal.cmp .olt (max x (-x)) (Ideal.ofBits .f32 0x7F800000#32) = 1#1) :
    ∃ r : ℝ, x = (r : EReal) := by
  rw [ofBits_posInf] at h
  have hlt : max x (-x) < ⊤ := by
    by_contra hn
    simp [Ideal.cmp, hn] at h
  induction x using EReal.rec with
  | bot => simp at hlt
  | coe r => exact ⟨r, rfl⟩
  | top => simp at hlt

/-! ## Sums and maxima of real rows -/

section Rows

variable {ι : Type*} [Fintype ι]

/-- A finite sum of coerced reals is the coerced sum. -/
theorem coe_sum (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of products of coerced reals is a real. -/
theorem sum_mul_real {κ : Type*} [Fintype κ] (u v : κ → ℝ) : ∃ r : ℝ, ∑ k, (u k : EReal) * (v k : EReal) = (r : EReal) :=
  ⟨∑ k, u k * v k, by rw [← coe_sum]; exact Finset.sum_congr rfl fun k _ => (EReal.coe_mul _ _).symm⟩

/-- The maximum of a nonempty row of reals, folded from `-∞`, is a real: it is below `+∞` because every entry is,
    and above `-∞` because some entry is. -/
theorem fold_max_real [Nonempty ι] (f : ι → ℝ) :
    ∃ M : ℝ, (Finset.univ : Finset ι).fold max (⊥ : EReal) (fun j => (f j : EReal)) = (M : EReal) := by
  have h1 : (Finset.univ : Finset ι).fold max (⊥ : EReal) (fun j => (f j : EReal)) ≠ ⊤ := by
    refine ne_of_lt ?_
    rw [Finset.fold_max_lt]
    exact ⟨bot_lt_top, fun x _ => EReal.coe_lt_top _⟩
  have h2 : (Finset.univ : Finset ι).fold max (⊥ : EReal) (fun j => (f j : EReal)) ≠ ⊥ := by
    obtain ⟨j0⟩ := ‹Nonempty ι›
    refine ne_of_gt (lt_of_lt_of_le (EReal.bot_lt_coe (f j0)) ?_)
    rw [Finset.le_fold_max]
    exact Or.inr ⟨j0, Finset.mem_univ _, le_rfl⟩
  exact ⟨_, (EReal.coe_toReal h1 h2).symm⟩

/-- A softmax does not see a common shift, and its quotient is the product with the reciprocal of the unshifted sum:
    `exp (s j − M) = exp (s j) / exp M` with `exp M` a positive real common to numerator and denominator. -/
theorem softmax_shift [Nonempty ι] (s : ι → ℝ) (M : ℝ) (j : ι) :
    Ideal.div (Ideal.exp ((s j : EReal) - (M : EReal))) (∑ i, Ideal.exp ((s i : EReal) - (M : EReal)))
      = Ideal.exp (s j : EReal) * Ideal.div 1 (∑ i, Ideal.exp (s i : EReal)) := by
  have h1 : ∀ i, Ideal.exp ((s i : EReal) - (M : EReal)) = ((Real.exp (s i - M) : ℝ) : EReal) := fun i => by
    rw [← EReal.coe_sub]; rfl
  have h2 : ∀ i, Ideal.exp (s i : EReal) = ((Real.exp (s i) : ℝ) : EReal) := fun i => rfl
  have hS1 : 0 < ∑ i, Real.exp (s i - M) := Finset.sum_pos (fun i _ => Real.exp_pos _) Finset.univ_nonempty
  have hS2 : 0 < ∑ i, Real.exp (s i) := Finset.sum_pos (fun i _ => Real.exp_pos _) Finset.univ_nonempty
  simp only [h1, h2, coe_sum]
  rw [Ideal.div_coe hS1.ne', Ideal.div_coe hS2.ne', one_mul, ← EReal.coe_mul, ← EReal.coe_mul]
  congr 1
  have hsub : ∀ i, Real.exp (s i - M) = Real.exp (s i) / Real.exp M := fun i => Real.exp_sub _ _
  have hM0 : Real.exp M ≠ 0 := (Real.exp_pos M).ne'
  have hS20 : (∑ i, Real.exp (s i)) ≠ 0 := hS2.ne'
  simp only [hsub, ← Finset.sum_div]
  field_simp

end Rows

end Cert.ERealRows

end
-- ==== Proof.Payloads.lean ====
/-
  The kernel body's arithmetic, read at an index over the extended reals.

  Each payload of the body is a whole-vector term; read at one index it is the tile step of the specification:
  the cached query tile is the queries times the scale; the scores are the matmul's dot products under the mask; the
  running maximum, the rescaling factor and the weights are the row folds and pointwise exponentials; the denominator
  and numerator updates are the lane sum and the second matmul added to the rescaled old values; the output is the
  numerator divided by the denominator. Format changes are the identity and every broadcast reads its column.
-/
import proofs.«422734_j67654324847232_3_alg».proof.Proof.Gen.KernelIdeal.Skeleton
import proofs.«422734_j67654324847232_3_alg».proof.Proof.Spec
import proofs.«422734_j67654324847232_3_alg».proof.Proof.LibERealRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Attn

/-! ## Layout operations of the body, read at an index -/

section Layout
variable {α : Type}

/-- A column `[2048, 1]` broadcast along the lanes reads, at `(r, c)`, the column's entry of row `r`. -/
theorem broadcastTo_col_apply {b : ℕ} (v : S2048x1.Idx → α) (h : S2048x1.Broadcasts ⟨2, ![2048, b]⟩) (r : Fin 2048) (c : Fin b) :
    broadcastTo ⟨2, ![2048, b]⟩ v h (ix2 r c) = v (ix2 r (0 : Fin 1)) := by
  refine broadcastTo_apply v h (ix2 r c) (ix2 r (0 : Fin 1)) fun ax => ?_
  match ax with
  | ⟨0, _⟩ =>
    show r.val = if (2048 : ℕ) = 1 then 0 else r.val
    rw [if_neg (by decide)]
  | ⟨1, _⟩ =>
    show 0 = if (1 : ℕ) = 1 then 0 else c.val
    rw [if_pos rfl]

/-- A row vector `[2048]` cast to the column `[2048, 1]` reads, at `(r, u)`, the vector's entry `r`. -/
theorem shapeCast_vec_col_apply (x : S2048.Idx → α) (h : S2048.ShapeCasts S2048x1) (r : Fin 2048) (u : Fin 1) :
    shapeCast S2048x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The source index of a reduction along the lanes: row `r` with lane `k` inserted. -/
theorem lift_lane (r : Fin 2048) (k : Fin 512) :
    reduces_S2048x512_S2048.lift (ix1 r) k = ix2 r k := by
  funext c
  apply Fin.ext
  match c with
  | ⟨0, _⟩ => rfl
  | ⟨1, _⟩ => rfl

end Layout

/-- A pointwise exponential at an index is the exponential of the element. -/
theorem exp_apply {s : Shape} {φ : FTy} (x : FVec Ideal s φ) (i : s.Idx) : exp x i = Ideal.exp (x i) := rfl

/-! ## The two matrix products of the body, read at an index -/

section Products

/-! The operand indices of the first product, axis by axis: the left operand is read at (output row, contraction
    position), the right one at (output column, contraction position). -/

theorem lhs_scores_0 (i : S2048x512.Idx) (q : dot_S2048x256_S512x256_S2048x512_1_1_0_0_n_n.contr.Idx) :
    (dot_S2048x256_S512x256_S2048x512_1_1_0_0_n_n.lhsIdx i q 0).val = (i 0).val := by
  unfold DotDims.lhsIdx
  rw [dif_neg (show ¬(0 : Fin S2048x256.rank) ∈ dot_S2048x256_S512x256_S2048x512_1_1_0_0_n_n.lhsBatch by decide), dif_pos (show (0 : Fin S2048x256.rank) ∈ dot_S2048x256_S512x256_S2048x512_1_1_0_0_n_n.lhsNonContracting by decide)]
  rfl
theorem lhs_scores_1 (i : S2048x512.Idx) (q : dot_S2048x256_S512x256_S2048x512_1_1_0_0_n_n.contr.Idx) :
    (dot_S2048x256_S512x256_S2048x512_1_1_0_0_n_n.lhsIdx i q 1).val = (q ⟨0, by decide⟩).val :=
  dot_S2048x256_S512x256_S2048x512_1_1_0_0_n_n.lhsIdx_val_of_single rfl i q
theorem rhs_scores_0 (i : S2048x512.Idx) (q : dot_S2048x256_S512x256_S2048x512_1_1_0_0_n_n.contr.Idx) :
    (dot_S2048x256_S512x256_S2048x512_1_1_0_0_n_n.rhsIdx i q 0).val = (i 1).val := by
  unfold DotDims.rhsIdx
  rw [dif_neg (show ¬(0 : Fin S512x256.rank) ∈ dot_S2048x256_S512x256_S2048x512_1_1_0_0_n_n.rhsBatch by decide), dif_pos (show (0 : Fin S512x256.rank) ∈ dot_S2048x256_S512x256_S2048x512_1_1_0_0_n_n.rhsNonContracting by decide)]
  rfl
theorem rhs_scores_1 (i : S2048x512.Idx) (q : dot_S2048x256_S512x256_S2048x512_1_1_0_0_n_n.contr.Idx) :
    (dot_S2048x256_S512x256_S2048x512_1_1_0_0_n_n.rhsIdx i q 1).val = (q ⟨0, by decide⟩).val :=
  dot_S2048x256_S512x256_S2048x512_1_1_0_0_n_n.rhsIdx_val_of_single rfl i q

/-- The first product, into a zero accumulator: entry `(r, c)` is the dot product of row `r` of the left operand and
    row `c` of the right one (both contract their second axis). -/
theorem matmul_scores_apply (a : FVec Ideal S2048x256 .bf16) (b : FVec Ideal S512x256 .bf16) (r : Fin 2048) (c : Fin 512) :
    matmul dot_S2048x256_S512x256_S2048x512_1_1_0_0_n_n none a b (constant (F := Ideal) S2048x512 .f32 0x00000000#32) (ix2 r c)
      = ∑ k : Fin 256, a (ix2 r k) * b (ix2 c k) := by
  refine (Ideal.matmul_constant_zero_apply dot_S2048x256_S512x256_S2048x512_1_1_0_0_n_n none a b (ix2 r c)).trans ?_
  rw [← Equiv.sum_comp (contrEquiv1 dot_S2048x256_S512x256_S2048x512_1_1_0_0_n_n 256 rfl rfl).symm]
  refine Finset.sum_congr rfl fun k _ => ?_
  have hk := contrEquiv1_symm_val dot_S2048x256_S512x256_S2048x512_1_1_0_0_n_n 256 rfl rfl k
  have el : dot_S2048x256_S512x256_S2048x512_1_1_0_0_n_n.lhsIdx (ix2 r c) ((contrEquiv1 dot_S2048x256_S512x256_S2048x512_1_1_0_0_n_n 256 rfl rfl).symm k) = ix2 r k := funext fun ax => Fin.ext (by
    match ax with
    | ⟨0, _⟩ => exact lhs_scores_0 _ _
    | ⟨1, _⟩ => exact (lhs_scores_1 _ _).trans hk)
  have er : dot_S2048x256_S512x256_S2048x512_1_1_0_0_n_n.rhsIdx (ix2 r c) ((contrEquiv1 dot_S2048x256_S512x256_S2048x512_1_1_0_0_n_n 256 rfl rfl).symm k) = ix2 c k := funext fun ax => Fin.ext (by
    match ax with
    | ⟨0, _⟩ => exact rhs_scores_0 _ _
    | ⟨1, _⟩ => exact (rhs_scores_1 _ _).trans hk)
  rw [el, er]

/-! The operand indices of the second product, axis by axis: the left operand is read at (output row, contraction
    position), the right one at (contraction position, output column). -/

theorem lhs_weighted_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs_weighted_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs_weighted_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs_weighted_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The second product, into a zero accumulator: entry `(r, d)` sums, over the tile's keys `k`, the left operand at
    `(r, k)` times the right one at `(k, d)`. -/
theorem matmul_weighted_apply (a : FVec Ideal S2048x512 .bf16) (b : FVec Ideal S512x256 .bf16) (r : Fin 2048) (d : Fin 256) :
    matmul dot_S2048x512_S512x256_S2048x256_1_0_0_1_n_n none a b (constant (F := Ideal) S2048x256 .f32 0x00000000#32) (ix2 r d)
      = ∑ k : Fin 512, a (ix2 r k) * b (ix2 k d) := by
  refine (Ideal.matmul_constant_zero_apply dot_S2048x512_S512x256_S2048x256_1_0_0_1_n_n none a b (ix2 r d)).trans ?_
  rw [← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 r d) ((contrEquiv1 dot_S2048x512_S512x256_S2048x256_1_0_0_1_n_n 512 rfl rfl).symm k) = ix2 r k := funext fun ax => Fin.ext (by
    match ax with
    | ⟨0, _⟩ => exact lhs_weighted_0 _ _
    | ⟨1, _⟩ => exact (lhs_weighted_1 _ _).trans hk)
  have er : dot_S2048x512_S512x256_S2048x256_1_0_0_1_n_n.rhsIdx (ix2 r d) ((contrEquiv1 dot_S2048x512_S512x256_S2048x256_1_0_0_1_n_n 512 rfl rfl).symm k) = ix2 k d := funext fun ax => Fin.ext (by
    match ax with
    | ⟨0, _⟩ => exact (rhs_weighted_0 _ _).trans hk
    | ⟨1, _⟩ => exact rhs_weighted_1 _ _)
  rw [el, er]

end Products

/-! ## The two reductions along the lanes, read at a row -/

section Reductions

/-- The row maximum folded from the pattern of `-∞`: at row `r`, the fold of `max` from `⊥` over the row's lanes. -/
theorem rowMax_apply (src : FVec Ideal S2048x512 .f32) (hφ : FKind.Formats .f32)
    (hacc : (0xFF800000#32 : BitVec 32) = 0xFF800000#32) (r : Fin 2048) :
    multiReduction (F := Ideal) .maximumf [1] S2048 src 0xFF800000#32 reduces_S2048x512_S2048 hφ hacc (ix1 r)
      = (Finset.univ : Finset (Fin 512)).fold max (⊥ : EReal) (fun c => src (ix2 r c)) := by
  refine (Ideal.multiReduction_maximumf_single src 0xFF800000#32 reduces_S2048x512_S2048 hφ hacc (ix1 r)).trans ?_
  show (Finset.univ : Finset (Fin 512)).fold max (Ideal.ofBits .f32 0xFF800000#32)
      (fun c => src (reduces_S2048x512_S2048.lift (ix1 r) c)) = _
  rw [Cert.ERealRows.ofBits_negInf]
  exact congrArg (fun f : Fin 512 → EReal => (Finset.univ : Finset (Fin 512)).fold max (⊥ : EReal) f)
    (funext fun c => congrArg src (lift_lane r c))

/-- The lane sum from the zero pattern: at row `r`, the sum over the row's lanes. -/
theorem laneSum_apply (src : FVec Ideal S2048x512 .f32) (hφ : FKind.Formats .f32)
    (hacc : (0x00000000#32 : BitVec 32) = 0x00000000#32) (r : Fin 2048) :
    multiReduction (F := Ideal) .add [1] S2048 src 0x00000000#32 reduces_S2048x512_S2048 hφ hacc (ix1 r)
      = ∑ c : Fin 512, src (ix2 r c) := by
  refine (Ideal.multiReduction_add_single src 0x00000000#32 reduces_S2048x512_S2048 hφ hacc (ix1 r)).trans ?_
  exact Finset.sum_congr rfl fun c _ => congrArg src (lift_lane r c)

end Reductions

variable (v3 : Vec Ideal S2048x256 .bf16) (v4 v28 : Vec Ideal S512x256 .f32) (v7 : Vec Ideal S2048x512 .i32)
  (v11 v20 : Vec Ideal S2048x1 .f32) (v32 : Vec Ideal S2048x256 .f32)

/-- The cached query tile is the query block times the scale. -/
theorem pay7_apply (x0 : Vec Ideal S2048x256 .f32) (r : Fin 2048) (d : Fin 256) :
    k0_pay7 (F := Ideal) x0 (ix2 r d) = tQ (fun r d => x0 (ix2 r d)) r d := by
  unfold k0_pay7
  rw [shapeCast_self]
  rfl

/-- The tile's masked scores: the comparison of the mask word with zero decides between the dot product and the
    sentinel. -/
theorem pay8_apply (r : Fin 2048) (c : Fin 512) :
    k0_pay8 (F := Ideal) v3 v4 v7 (ix2 r c)
      = tScore (fun r d => v3 (ix2 r d)) (fun c d => v4 (ix2 c d)) (fun r c => v7 (ix2 r c)) r c := by
  unfold k0_pay8
  show Scalar.select (IntOp.cmpi .ne (v7 (ix2 r c)) 0#32)
      (matmul dot_S2048x256_S512x256_S2048x512_1_1_0_0_n_n none v3 (truncf .bf16 v4 bitsLt_bf16_f32)
        (constant (F := Ideal) S2048x512 .f32 0x00000000#32) (ix2 r c)) NEG
    = if v7 (ix2 r c) = 0#32 then NEG else ∑ d : Fin 256, v3 (ix2 r d) * v4 (ix2 c d)
  rw [matmul_scores_apply]
  by_cases h : v7 (ix2 r c) = 0#32
  · have hc : IntOp.cmpi .ne (v7 (ix2 r c)) 0#32 = 0#1 := eq_zero_of_ne_one fun hc => (IntOp.cmpi_ne.mp hc) h
    rw [hc, select_zero, if_pos h]
  · have hc : IntOp.cmpi .ne (v7 (ix2 r c)) 0#32 = 1#1 := IntOp.cmpi_ne.mpr h
    rw [hc, select_one, if_neg h]
    rfl

/-- The new running maximum. -/
theorem pay9_apply (r : Fin 2048) :
    k0_pay9 (F := Ideal) v3 v4 v7 v11 (ix2 r (0 : Fin 1))
      = tMax (fun r d => v3 (ix2 r d)) (fun c d => v4 (ix2 c d)) (fun r c => v7 (ix2 r c)) (fun r => v11 (ix2 r (0 : Fin 1))) r := by
  -- the tile's row maximum: the column cast reads the row, the reduction is the fold over the lanes, each lane a score
  have e : shapeCast S2048x1 (multiReduction (F := Ideal) .maximumf [1] S2048 (k0_pay8 (F := Ideal) v3 v4 v7) 0xFF800000#32
        reduces_S2048x512_S2048 (.inl rfl) rfl) shapeCasts_S2048_S2048x1 (ix2 r (0 : Fin 1))
      = (Finset.univ : Finset (Fin 512)).fold max (⊥ : EReal)
          (fun c => tScore (fun r d => v3 (ix2 r d)) (fun c d => v4 (ix2 c d)) (fun r c => v7 (ix2 r c)) r c) :=
    (shapeCast_vec_col_apply _ _ r 0).trans
      ((rowMax_apply (k0_pay8 (F := Ideal) v3 v4 v7) (.inl rfl) rfl r).trans
        (congrArg (fun f : Fin 512 → EReal => (Finset.univ : Finset (Fin 512)).fold max (⊥ : EReal) f)
          (funext fun c => pay8_apply v3 v4 v7 r c)))
  refine (maximumf_apply v11 _ (ix2 r (0 : Fin 1))).trans ?_
  exact congrArg (fun x : EReal => max (v11 (ix2 r (0 : Fin 1)) : EReal) x) e

/-- The factor that rescales what was accumulated under the old maximum. -/
theorem pay10_apply (r : Fin 2048) :
    k0_pay10 (F := Ideal) v3 v4 v7 v11 (ix2 r (0 : Fin 1))
      = tAlpha (fun r d => v3 (ix2 r d)) (fun c d => v4 (ix2 c d)) (fun r c => v7 (ix2 r c)) (fun r => v11 (ix2 r (0 : Fin 1))) r := by
  refine (exp_apply (subf v11 (k0_pay9 (F := Ideal) v3 v4 v7 v11)) (ix2 r (0 : Fin 1))).trans ?_
  refine congrArg Ideal.exp ?_
  refine (subf_apply _ _ _).trans ?_
  exact congrArg (fun x : EReal => (v11 (ix2 r (0 : Fin 1)) : EReal) - x) (pay9_apply v3 v4 v7 v11 r)

/-- The tile's weights under the new maximum. -/
theorem pay11_apply (r : Fin 2048) (c : Fin 512) :
    k0_pay11 (F := Ideal) v3 v4 v7 v11 (ix2 r c)
      = tP (fun r d => v3 (ix2 r d)) (fun c d => v4 (ix2 c d)) (fun r c => v7 (ix2 r c)) (fun r => v11 (ix2 r (0 : Fin 1))) r c := by
  refine (exp_apply (subf (k0_pay8 (F := Ideal) v3 v4 v7)
    (broadcastTo S2048x512 (k0_pay9 (F := Ideal) v3 v4 v7 v11) broadcasts_S2048x1_S2048x512)) (ix2 r c)).trans ?_
  refine congrArg Ideal.exp ?_
  refine (subf_apply _ _ _).trans ?_
  exact congrArg₂ (fun x y : EReal => x - y) (pay8_apply v3 v4 v7 r c)
    ((broadcastTo_col_apply _ _ r c).trans (pay9_apply v3 v4 v7 v11 r))

/-- The updated denominator. -/
theorem pay12_apply (r : Fin 2048) :
    k0_pay12 (F := Ideal) v3 v4 v7 v11 v20 (ix2 r (0 : Fin 1))
      = tL (fun r d => v3 (ix2 r d)) (fun c d => v4 (ix2 c d)) (fun r c => v7 (ix2 r c)) (fun r => v11 (ix2 r (0 : Fin 1)))
          (fun r => v20 (ix2 r (0 : Fin 1))) r := by
  -- the tile's lane sum: the column cast reads the row, the reduction is the sum over the lanes, each lane a weight
  have e : shapeCast S2048x1 (multiReduction (F := Ideal) .add [1] S2048 (k0_pay11 (F := Ideal) v3 v4 v7 v11) 0x00000000#32
        reduces_S2048x512_S2048 (.inl rfl) rfl) shapeCasts_S2048_S2048x1 (ix2 r (0 : Fin 1))
      = ∑ c : Fin 512, tP (fun r d => v3 (ix2 r d)) (fun c d => v4 (ix2 c d)) (fun r c => v7 (ix2 r c)) (fun r => v11 (ix2 r (0 : Fin 1))) r c :=
    (shapeCast_vec_col_apply _ _ r 0).trans
      ((laneSum_apply (k0_pay11 (F := Ideal) v3 v4 v7 v11) (.inl rfl) rfl r).trans
        (Finset.sum_congr rfl fun c _ => pay11_apply v3 v4 v7 v11 r c))
  refine (congrFun (shapeCast_self (addf (mulf (k0_pay10 (F := Ideal) v3 v4 v7 v11) v20)
      (shapeCast S2048x1 (multiReduction (F := Ideal) .add [1] S2048 (k0_pay11 (F := Ideal) v3 v4 v7 v11) 0x00000000#32
        reduces_S2048x512_S2048 (.inl rfl) rfl) shapeCasts_S2048_S2048x1)) shapeCasts_S2048x1_S2048x1)
    (ix2 r (0 : Fin 1))).trans ?_
  refine (addf_apply _ _ _).trans ?_
  exact congrArg₂ (fun x y : EReal => x + y)
    ((mulf_apply _ _ _).trans
      (congrArg (fun x : EReal => x * (v20 (ix2 r (0 : Fin 1)) : EReal)) (pay10_apply v3 v4 v7 v11 r))) e

/-- The weights times the value block. -/
theorem pay13_apply (r : Fin 2048) (d : Fin 256) :
    k0_pay13 (F := Ideal) v3 v4 v7 v11 v28 (ix2 r d)
      = ∑ c : Fin 512, tP (fun r d => v3 (ix2 r d)) (fun c d => v4 (ix2 c d)) (fun r c => v7 (ix2 r c))
          (fun r => v11 (ix2 r (0 : Fin 1))) r c * v28 (ix2 c d) := by
  refine (matmul_weighted_apply (truncf .bf16 (k0_pay11 (F := Ideal) v3 v4 v7 v11) bitsLt_bf16_f32)
    (truncf .bf16 v28 bitsLt_bf16_f32) r d).trans ?_
  refine Finset.sum_congr rfl fun c _ => ?_
  exact congrArg₂ (fun x y : EReal => x * y)
    ((truncf_apply (ψ := .bf16) (k0_pay11 (F := Ideal) v3 v4 v7 v11) bitsLt_bf16_f32 (ix2 r c)).trans
      (pay11_apply v3 v4 v7 v11 r c))
    (truncf_apply (ψ := .bf16) v28 bitsLt_bf16_f32 (ix2 c d))

/-- The updated numerator: the rescaled old accumulator plus the weights times the value block. -/
theorem pay1_apply (r : Fin 2048) (d : Fin 256) :
    k0_pay1 (F := Ideal) (k0_pay10 (F := Ideal) v3 v4 v7 v11) (k0_pay13 (F := Ideal) v3 v4 v7 v11 v28) v32 (ix2 r d)
      = tAcc (fun r d => v3 (ix2 r d)) (fun c d => v4 (ix2 c d)) (fun c d => v28 (ix2 c d)) (fun r c => v7 (ix2 r c))
          (fun r => v11 (ix2 r (0 : Fin 1))) (fun r d => v32 (ix2 r d)) r d := by
  refine (congrFun (shapeCast_self (addf (mulf (broadcastTo S2048x256 (k0_pay10 (F := Ideal) v3 v4 v7 v11)
      broadcasts_S2048x1_S2048x256) v32) (k0_pay13 (F := Ideal) v3 v4 v7 v11 v28)) shapeCasts_S2048x256_S2048x256)
    (ix2 r d)).trans ?_
  refine (addf_apply _ _ _).trans ?_
  exact congrArg₂ (fun x y : EReal => x + y)
    ((mulf_apply _ _ _).trans
      (congrArg (fun x : EReal => x * (v32 (ix2 r d) : EReal))
        ((broadcastTo_col_apply _ _ r d).trans (pay10_apply v3 v4 v7 v11 r))))
    (pay13_apply v3 v4 v28 v7 v11 r d)

/-- Storing the running maximum changes nothing. -/
theorem pay2_eq (v14 : FVec Ideal S2048x1 .f32) : k0_pay2 (F := Ideal) v14 = v14 := by
  unfold k0_pay2
  exact shapeCast_self v14 _

/-- The output: numerator over denominator, the denominator read at the row's one column. -/
theorem pay3_apply (v45 : Vec Ideal S2048x256 .f32) (v46 : Vec Ideal S2048x1 .f32) (r : Fin 2048) (d : Fin 256) :
    k0_pay3 (F := Ideal) v45 v46 (ix2 r d) = Ideal.div (v45 (ix2 r d)) (v46 (ix2 r (0 : Fin 1))) := by
  unfold k0_pay3
  show Ideal.div (v45 (ix2 r d)) (broadcastTo S2048x256 v46 broadcasts_S2048x1_S2048x256 (ix2 r d)) = _
  rw [broadcastTo_col_apply]

/-- The reset values: `-∞` for the running maximum, `0` for the denominator and the numerator. -/
theorem pay4_apply (r : Fin 2048) : (k0_pay4 (F := Ideal)) (ix2 r (0 : Fin 1)) = (⊥ : EReal) := by
  unfold k0_pay4
  rw [shapeCast_self]
  exact Cert.ERealRows.ofBits_negInf

theorem pay5_apply (r : Fin 2048) : (k0_pay5 (F := Ideal)) (ix2 r (0 : Fin 1)) = (0 : EReal) := by
  unfold k0_pay5
  rw [shapeCast_self]
  exact Ideal.ofBits_zero_f32

theorem pay6_apply (r : Fin 2048) (d : Fin 256) : (k0_pay6 (F := Ideal)) (ix2 r d) = (0 : EReal) := by
  unfold k0_pay6
  rw [shapeCast_self]
  exact Ideal.ofBits_zero_f32

end Cert.KernelIdeal.Pay

end
-- ==== Proof.Stream.lean ====
/-
  The arithmetic of a softmax accumulated tile by tile.

  Over the reals: rescaling what was accumulated under an old shift by `exp (μ − μ')` turns it into what would have been
  accumulated under the new shift `μ'`, because `exp (μ − μ') · exp (s − μ) = exp (s − μ')`; so the streamed denominator
  and numerator over `n + 1` tiles are the rescaled ones over `n` tiles plus the new tile's. After all 16 tiles the
  quotient does not depend on the shift, and equals the one-pass softmax average.

  Over the extended reals: one row of a tile step, started either from the empty accumulation (`-∞`, `0`, `0`) or from
  a real running maximum, ends at a real running maximum with the sums over one more tile.
-/
import proofs.«422734_j67654324847232_3_alg».proof.Proof.Spec
import proofs.«422734_j67654324847232_3_alg».proof.Proof.LibERealRows

noncomputable section

namespace Cert.Attn

open Idealize.ShloMosaic

/-! ## Over the reals -/

/-- The pair (tile, key within the tile) as a key: the bijection `(j, c) ↦ c + 512 · j`. -/
private def tileEquiv : Fin 16 × Fin 512 ≃ Fin 8192 := (finProdFinEquiv : Fin 16 × Fin 512 ≃ Fin (16 * 512))

private theorem tk_eq_tileEquiv (x : Fin 16 × Fin 512) : tk x.1.val x.2 = tileEquiv x := by
  apply Fin.ext
  rw [tk_val x.1.isLt]
  show 512 * x.1.val + x.2.val = x.2.val + 512 * x.1.val
  omega

/-- The 16 tiles of 512 keys enumerate all 8192 keys. -/
theorem sum_tiles (f : Fin 8192 → ℝ) : ∑ j ∈ Finset.range 16, ∑ c : Fin 512, f (tk j c) = ∑ k : Fin 8192, f k := by
  calc ∑ j ∈ Finset.range 16, ∑ c : Fin 512, f (tk j c)
      = ∑ j : Fin 16, ∑ c : Fin 512, f (tk j.val c) := Finset.sum_range (fun j => ∑ c : Fin 512, f (tk j c))
    _ = ∑ x : Fin 16 × Fin 512, f (tk x.1.val x.2) :=
        (Fintype.sum_prod_type' (fun (j : Fin 16) (c : Fin 512) => f (tk j.val c))).symm
    _ = ∑ x : Fin 16 × Fin 512, f (tileEquiv x) := Finset.sum_congr rfl fun x _ => by rw [tk_eq_tileEquiv x]
    _ = ∑ k : Fin 8192, f k := Equiv.sum_comp tileEquiv f

theorem Lsum_zero (s : Fin 8192 → ℝ) (μ : ℝ) : Lsum s 0 μ = 0 := by
  unfold Lsum
  rw [Finset.range_zero, Finset.sum_empty]

theorem Asum_zero (s v : Fin 8192 → ℝ) (μ : ℝ) : Asum s v 0 μ = 0 := by
  unfold Asum
  rw [Finset.range_zero, Finset.sum_empty]

/-- A weight under the old shift, rescaled, is the weight under the new shift. -/
private theorem exp_rescale (a μ μ' : ℝ) : Real.exp (μ - μ') * Real.exp (a - μ) = Real.exp (a - μ') := by
  rw [← Real.exp_add]
  congr 1
  ring

/-- Rescaling the denominator to a new shift and adding the next tile. -/
theorem Lsum_step (s : Fin 8192 → ℝ) (n : ℕ) (μ μ' : ℝ) :
    Real.exp (μ - μ') * Lsum s n μ + ∑ c : Fin 512, Real.exp (s (tk n c) - μ') = Lsum s (n + 1) μ' := by
  unfold Lsum
  rw [Finset.sum_range_succ, Finset.mul_sum]
  congr 1
  refine Finset.sum_congr rfl fun j _ => ?_
  rw [Finset.mul_sum]
  exact Finset.sum_congr rfl fun c _ => exp_rescale _ _ _

/-- Rescaling the numerator to a new shift and adding the next tile. -/
theorem Asum_step (s v : Fin 8192 → ℝ) (n : ℕ) (μ μ' : ℝ) :
    Real.exp (μ - μ') * Asum s v n μ + ∑ c : Fin 512, Real.exp (s (tk n c) - μ') * v (tk n c) = Asum s v (n + 1) μ' := by
  unfold Asum
  rw [Finset.sum_range_succ, Finset.mul_sum]
  congr 1
  refine Finset.sum_congr rfl fun j _ => ?_
  rw [Finset.mul_sum]
  exact Finset.sum_congr rfl fun c _ => by rw [← mul_assoc, exp_rescale]

theorem Lsum_pos (s : Fin 8192 → ℝ) (μ : ℝ) : 0 < Lsum s 16 μ := by
  unfold Lsum
  refine Finset.sum_pos (fun j _ => ?_) ⟨0, Finset.mem_range.mpr (by norm_num)⟩
  exact Finset.sum_pos (fun c _ => Real.exp_pos _) Finset.univ_nonempty

/-- A shift inside the exponentials is a common positive factor of the numerator. -/
private theorem shift_num (s v : Fin 8192 → ℝ) (μ : ℝ) :
    ∑ k : Fin 8192, Real.exp (s k - μ) * v k = Real.exp (-μ) * ∑ k : Fin 8192, Real.exp (s k) * v k := by
  rw [Finset.mul_sum]
  refine Finset.sum_congr rfl fun k _ => ?_
  rw [← mul_assoc, ← Real.exp_add]
  congr 2
  ring

/-- A shift inside the exponentials is a common positive factor of the denominator. -/
private theorem shift_den (s : Fin 8192 → ℝ) (μ : ℝ) :
    ∑ k : Fin 8192, Real.exp (s k - μ) = Real.exp (-μ) * ∑ k : Fin 8192, Real.exp (s k) := by
  rw [Finset.mul_sum]
  refine Finset.sum_congr rfl fun k _ => ?_
  rw [← Real.exp_add]
  congr 1
  ring

/-- A quotient of shifted sums is the attention average: the factor `exp (−μ)` cancels. -/
private theorem shifted_quot (s : Fin 8192 → ℝ) (V : Fin 8192 → Fin 256 → ℝ) (d : Fin 256) (μ : ℝ) :
    (∑ k : Fin 8192, Real.exp (s k - μ) * V k d) / (∑ k : Fin 8192, Real.exp (s k - μ)) = attn s V d := by
  rw [shift_num s (fun k => V k d) μ, shift_den s μ, attn, mul_div_mul_left _ _ (Real.exp_pos _).ne']

/-- After all tiles the streamed quotient is the attention average, whatever the shift. -/
theorem stream_final (s : Fin 8192 → ℝ) (V : Fin 8192 → Fin 256 → ℝ) (d : Fin 256) (μ : ℝ) :
    Asum s (fun k => V k d) 16 μ / Lsum s 16 μ = attn s V d := by
  have hA : Asum s (fun k => V k d) 16 μ = ∑ k : Fin 8192, Real.exp (s k - μ) * V k d :=
    sum_tiles (fun k => Real.exp (s k - μ) * V k d)
  have hL : Lsum s 16 μ = ∑ k : Fin 8192, Real.exp (s k - μ) := sum_tiles (fun k => Real.exp (s k - μ))
  rw [hA, hL, shifted_quot]

/-- The one-pass softmax, shifted by any real, averages to the same. -/
theorem onepass_final (s : Fin 8192 → ℝ) (V : Fin 8192 → Fin 256 → ℝ) (d : Fin 256) (M : ℝ) :
    ∑ k : Fin 8192, (Real.exp (s k - M) / ∑ k' : Fin 8192, Real.exp (s k' - M)) * V k d = attn s V d := by
  rw [← shifted_quot s V d M, Finset.sum_div]
  exact Finset.sum_congr rfl fun k _ => div_mul_eq_mul_div _ _ _

/-! ## Over the extended reals -/

/-- The exponential of a difference of two reals, read over the extended reals, is the real exponential. -/
private theorem exp_coe_sub (a b : ℝ) : Ideal.exp ((a : EReal) - (b : EReal)) = ((Real.exp (a - b) : ℝ) : EReal) := by
  rw [← EReal.coe_sub]
  rfl

/-- The inclusion of the reals is monotone, so it commutes with the maximum. -/
private theorem coe_max_real (a b : ℝ) : ((max a b : ℝ) : EReal) = max (a : EReal) (b : EReal) :=
  EReal.coe_strictMono.monotone.map_max

/-- A tile's weights under a real shift sum to a real. -/
private theorem tile_den (sc : Fin 512 → EReal) (s : Fin 8192 → ℝ) (n : ℕ) (hS : ∀ c, sc c = ((s (tk n c) : ℝ) : EReal)) (μ' : ℝ) :
    ∑ c : Fin 512, Ideal.exp (sc c - (μ' : EReal)) = ((∑ c : Fin 512, Real.exp (s (tk n c) - μ') : ℝ) : EReal) := by
  rw [← Cert.ERealRows.coe_sum]
  exact Finset.sum_congr rfl fun c _ => by rw [hS c, exp_coe_sub]

/-- A tile's weighted value rows under a real shift sum to a real. -/
private theorem tile_num (sc : Fin 512 → EReal) (vv : Fin 512 → Fin 256 → EReal) (s : Fin 8192 → ℝ) (V : Fin 8192 → Fin 256 → ℝ) (n : ℕ)
    (hS : ∀ c, sc c = ((s (tk n c) : ℝ) : EReal)) (hV : ∀ c d, vv c d = ((V (tk n c) d : ℝ) : EReal)) (μ' : ℝ) (d : Fin 256) :
    ∑ c : Fin 512, Ideal.exp (sc c - (μ' : EReal)) * vv c d
      = ((∑ c : Fin 512, Real.exp (s (tk n c) - μ') * V (tk n c) d : ℝ) : EReal) := by
  rw [← Cert.ERealRows.coe_sum]
  exact Finset.sum_congr rfl fun c _ => by rw [hS c, hV c d, exp_coe_sub, ← EReal.coe_mul]

/-- One row of a tile step. `sc` are the tile's scores and `vv` its value rows, both real; the state before is
    either the empty accumulation (before the first tile) or a real running maximum with the sums over `n` tiles. -/
theorem row_step (sc : Fin 512 → EReal) (vv : Fin 512 → Fin 256 → EReal) (s : Fin 8192 → ℝ) (V : Fin 8192 → Fin 256 → ℝ) (n : ℕ)
    (hS : ∀ c, sc c = ((s (tk n c) : ℝ) : EReal)) (hV : ∀ c d, vv c d = ((V (tk n c) d : ℝ) : EReal))
    (mp lp : EReal) (ap : Fin 256 → EReal)
    (hprev : (n = 0 ∧ mp = ⊥ ∧ lp = 0 ∧ ∀ d, ap d = 0)
      ∨ (∃ μ : ℝ, mp = (μ : EReal) ∧ lp = ((Lsum s n μ : ℝ) : EReal) ∧ ∀ d, ap d = ((Asum s (fun k => V k d) n μ : ℝ) : EReal))) :
    ∃ μ' : ℝ, max mp ((Finset.univ : Finset (Fin 512)).fold max (⊥ : EReal) sc) = (μ' : EReal)
      ∧ Ideal.exp (mp - max mp ((Finset.univ : Finset (Fin 512)).fold max (⊥ : EReal) sc)) * lp
          + ∑ c : Fin 512, Ideal.exp (sc c - max mp ((Finset.univ : Finset (Fin 512)).fold max (⊥ : EReal) sc))
        = ((Lsum s (n + 1) μ' : ℝ) : EReal)
      ∧ ∀ d : Fin 256, Ideal.exp (mp - max mp ((Finset.univ : Finset (Fin 512)).fold max (⊥ : EReal) sc)) * ap d
          + ∑ c : Fin 512, Ideal.exp (sc c - max mp ((Finset.univ : Finset (Fin 512)).fold max (⊥ : EReal) sc)) * vv c d
        = ((Asum s (fun k => V k d) (n + 1) μ' : ℝ) : EReal) := by
  -- the tile's row maximum is a real `M`
  obtain ⟨M, hM⟩ := Cert.ERealRows.fold_max_real (fun c : Fin 512 => s (tk n c))
  have hsc : sc = fun c => ((s (tk n c) : ℝ) : EReal) := funext hS
  have hF : (Finset.univ : Finset (Fin 512)).fold max (⊥ : EReal) sc = (M : EReal) := by rw [hsc]; exact hM
  rw [hF]
  rcases hprev with ⟨hn, hmp, hlp, hap⟩ | ⟨μ, hmp, hlp, hap⟩
  · -- before the first tile: the new maximum is `M`, and what was accumulated is zero
    subst hn
    have hmax : max mp (M : EReal) = (M : EReal) := by rw [hmp]; exact max_bot_left _
    rw [hmax]
    refine ⟨M, rfl, ?_, fun d => ?_⟩
    · rw [hlp, mul_zero, zero_add, tile_den sc s 0 hS M, ← Lsum_step s 0 0 M, Lsum_zero, mul_zero, zero_add]
    · rw [hap d, mul_zero, zero_add, tile_num sc vv s V 0 hS hV M d, ← Asum_step s (fun k => V k d) 0 0 M, Asum_zero,
        mul_zero, zero_add]
  · -- a real running maximum `μ`: the new one is `max μ M`, and the step is the real one
    have hmax : max mp (M : EReal) = ((max μ M : ℝ) : EReal) := by rw [hmp, coe_max_real]
    rw [hmax]
    refine ⟨max μ M, rfl, ?_, fun d => ?_⟩
    · rw [hmp, hlp, exp_coe_sub, tile_den sc s n hS, ← EReal.coe_mul, ← EReal.coe_add, Lsum_step]
    · rw [hmp, hap d, exp_coe_sub, tile_num sc vv s V n hS hV, ← EReal.coe_mul, ← EReal.coe_add,
        Asum_step s (fun k => V k d)]

/-- The final division of the streamed sums is the attention average. -/
theorem row_final (s : Fin 8192 → ℝ) (V : Fin 8192 → Fin 256 → ℝ) (d : Fin 256) (μ : ℝ) :
    Ideal.div ((Asum s (fun k => V k d) 16 μ : ℝ) : EReal) ((Lsum s 16 μ : ℝ) : EReal) = ((attn s V d : ℝ) : EReal) := by
  rw [Ideal.div_coe (Lsum_pos s μ).ne', ← EReal.coe_mul, mul_one_div, stream_final]

/-- The one-pass softmax over a real row, as a float program read at exact arithmetic computes it (maximum folded
    from `-∞` and joined with `-∞`, sum started from `0`), averages the value rows to the attention average. -/
theorem row_onepass (s : Fin 8192 → ℝ) (V : Fin 8192 → Fin 256 → ℝ) (d : Fin 256) :
    ∑ k : Fin 8192,
        Ideal.div (Ideal.exp (((s k : ℝ) : EReal) - max (⊥ : EReal) ((Finset.univ : Finset (Fin 8192)).fold max (⊥ : EReal) fun k' => ((s k' : ℝ) : EReal))))
          (0 + ∑ k' : Fin 8192, Ideal.exp (((s k' : ℝ) : EReal) - max (⊥ : EReal) ((Finset.univ : Finset (Fin 8192)).fold max (⊥ : EReal) fun k'' => ((s k'' : ℝ) : EReal))))
          * ((V k d : ℝ) : EReal)
      = ((attn s V d : ℝ) : EReal) := by
  -- the row maximum is a real `M`, and joining it with `-∞` changes nothing
  obtain ⟨M, hM⟩ := Cert.ERealRows.fold_max_real s
  rw [hM, max_bot_left, zero_add]
  have hden : ∑ k' : Fin 8192, Ideal.exp (((s k' : ℝ) : EReal) - (M : EReal))
      = ((∑ k' : Fin 8192, Real.exp (s k' - M) : ℝ) : EReal) := by
    rw [← Cert.ERealRows.coe_sum]
    exact Finset.sum_congr rfl fun k _ => exp_coe_sub _ _
  have hpos : 0 < ∑ k' : Fin 8192, Real.exp (s k' - M) :=
    Finset.sum_pos (fun k _ => Real.exp_pos _) Finset.univ_nonempty
  rw [hden, ← onepass_final s V d M,
    ← Cert.ERealRows.coe_sum (Finset.univ : Finset (Fin 8192))
      (fun k => (Real.exp (s k - M) / ∑ k' : Fin 8192, Real.exp (s k' - M)) * V k d)]
  refine Finset.sum_congr rfl fun k _ => ?_
  rw [Ideal.div_coe hpos.ne', exp_coe_sub, ← EReal.coe_mul, ← EReal.coe_mul, mul_one_div]

end Cert.Attn

end
-- ==== Proof.Rows.lean ====
/-
  Row by row, what the streamed attention holds after each grid point.

  Fix a device and assume the query, key and value arrays hold reals. For the point `n` of the grid — query tile
  `n / 16`, key tile `n % 16` — and a row `r` of the query tile, let `s` be the row's scores against all 8192 keys.
  Then after the point the running maximum at `r` is some real `μ`, the denominator is `∑ exp (s k − μ)` and the
  numerator `∑ exp (s k − μ) · V k d`, both over the keys of the tiles `0 … n % 16`, and the cached query tile is the
  query row times the scale. The shift `μ` need not be named: a softmax does not see a common shift.

  The induction follows the body's three cases. A first-tile point starts from `-∞`, `0`, `0`; every other point
  updates what the point before left; and at a last-tile point, where all 16 tiles have been seen, the output block is
  the numerator over the denominator, the attention average of the row.
-/
import proofs.«422734_j67654324847232_3_alg».proof.Proof.Comps
import proofs.«422734_j67654324847232_3_alg».proof.Proof.Blocks
import proofs.«422734_j67654324847232_3_alg».proof.Proof.Payloads
import proofs.«422734_j67654324847232_3_alg».proof.Proof.Stream
import proofs.«422734_j67654324847232_3_alg».proof.Proof.Spec
import proofs.«422734_j67654324847232_3_alg».proof.Proof.LibERealRows

noncomputable section
open Idealize.ShloMosaic Idealize.ShloMosaic.TcCoe Idealize.SL.Sem Idealize.ShloMosaic.ValueIdx

namespace Cert.Attn

/-! ## The two literals -/

/-- The scale's pattern denotes `1/16`. -/
theorem SCALE_eq : SCALE = (((1 / 16 : ℝ)) : EReal) := by
  unfold SCALE
  simp [Ideal.ofBits, Ideal.ieee, -EReal.coe_mul]
  norm_num

/-- The sentinel's pattern denotes a real. -/
theorem NEG_eq : NEG = ((negR : ℝ) : EReal) := by
  have h : ∃ r : ℝ, NEG = (r : EReal) := by
    unfold NEG
    simp [Ideal.ofBits, Ideal.ieee, -EReal.coe_mul]
    exact ⟨_, (EReal.coe_neg _).symm⟩
  obtain ⟨r, hr⟩ := h
  unfold negR
  rw [hr]
  rfl

/-! ## A tile's scores are the row's scores -/

/-- With the cached query row the real query row times the scale, the key tile real, and the mask word zero exactly
    where the mask excludes the pair, the tile's masked score is the row's score at that key: scaling the query before
    the dot product is scaling the dot product. -/
theorem tScore_real (Qg Kg : Fin 8192 → Fin 256 → ℝ) (b : Fin 8192 → Fin 8192 → Bool) (q : Fin 8192) (j : ℕ)
    (qs : Fin 2048 → Fin 256 → EReal) (ks : Fin 512 → Fin 256 → EReal) (mk : Fin 2048 → Fin 512 → BitVec 32) (r : Fin 2048)
    (hqs : ∀ d, qs r d = ((Qg q d : ℝ) : EReal) * SCALE) (hks : ∀ c d, ks c d = ((Kg (tk j c) d : ℝ) : EReal))
    (hmk : ∀ c, mk r c = 0#32 ↔ b q (tk j c) = false) (c : Fin 512) :
    tScore qs ks mk r c = ((score Qg Kg b q (tk j c) : ℝ) : EReal) := by
  unfold tScore score
  by_cases hb : b q (tk j c) = true
  · have hne : ¬ mk r c = 0#32 := fun h => by
      have := (hmk c).mp h
      rw [this] at hb
      exact Bool.false_ne_true hb
    rw [if_neg hne, if_pos hb]
    have e : ∀ d : Fin 256, qs r d * ks c d = (((Qg q d * (1 / 16)) * Kg (tk j c) d : ℝ) : EReal) := fun d => by
      rw [hqs, hks, SCALE_eq, ← EReal.coe_mul, ← EReal.coe_mul]
    simp only [e]
    rw [ERealRows.coe_sum]
    congr 1
    rw [Finset.sum_mul]
    exact Finset.sum_congr rfl fun d _ => by ring
  · have hb' : b q (tk j c) = false := by simpa using hb
    rw [if_pos ((hmk c).mpr hb'), if_neg hb, NEG_eq]

end Cert.Attn

namespace Cert.KernelIdeal.Rows
open Cert.KernelIdeal Cert.KernelIdeal.Gen Cert.KernelIdeal.Comps Cert.Attn

/-! ## One point's update of one row -/

/-- The body's update of row `r` at query tile `i` and key tile `j`, from real blocks and either the reset values
    (first tile) or a real running maximum with the sums over `j` tiles: a real running maximum with the sums over
    `j + 1` tiles. -/
theorem step_rows (Qg Kg Vg : Fin 8192 → Fin 256 → ℝ) (b : Fin 8192 → Fin 8192 → Bool) (i j : ℕ)
    (v3 : Vec Ideal S2048x256 .bf16) (x1 x2 : Vec Ideal S512x256 .f32) (x3 : Vec Ideal S2048x512 .i32)
    (v11 v20 : Vec Ideal S2048x1 .f32) (v32 : Vec Ideal S2048x256 .f32)
    (h3 : ∀ (r : Fin 2048) (d : Fin 256), (v3 (ix2 r d) : EReal) = ((Qg (tq i r) d : ℝ) : EReal) * SCALE)
    (h1 : ∀ (k : Fin 512) (d : Fin 256), (x1 (ix2 k d) : EReal) = ((Kg (tk j k) d : ℝ) : EReal))
    (h2 : ∀ (k : Fin 512) (d : Fin 256), (x2 (ix2 k d) : EReal) = ((Vg (tk j k) d : ℝ) : EReal))
    (hm : ∀ (r : Fin 2048) (k : Fin 512), (x3 (ix2 r k) : BitVec 32) = 0#32 ↔ b (tq i r) (tk j k) = false)
    (r : Fin 2048)
    (hprev : (j = 0 ∧ (v11 (ix2 r (0 : Fin 1)) : EReal) = ⊥ ∧ (v20 (ix2 r (0 : Fin 1)) : EReal) = 0 ∧ ∀ d : Fin 256, (v32 (ix2 r d) : EReal) = 0)
      ∨ (∃ μ : ℝ, (v11 (ix2 r (0 : Fin 1)) : EReal) = (μ : EReal)
          ∧ (v20 (ix2 r (0 : Fin 1)) : EReal) = ((Lsum (score Qg Kg b (tq i r)) j μ : ℝ) : EReal)
          ∧ ∀ d : Fin 256, (v32 (ix2 r d) : EReal) = ((Asum (score Qg Kg b (tq i r)) (fun k => Vg k d) j μ : ℝ) : EReal))) :
    ∃ μ' : ℝ, (k0_pay9 (F := Ideal) v3 x1 x3 v11 (ix2 r (0 : Fin 1)) : EReal) = (μ' : EReal)
      ∧ (k0_pay12 (F := Ideal) v3 x1 x3 v11 v20 (ix2 r (0 : Fin 1)) : EReal) = ((Lsum (score Qg Kg b (tq i r)) (j + 1) μ' : ℝ) : EReal)
      ∧ ∀ d : Fin 256, (k0_pay1 (F := Ideal) (k0_pay10 (F := Ideal) v3 x1 x3 v11) (k0_pay13 (F := Ideal) v3 x1 x3 v11 x2) v32 (ix2 r d) : EReal)
          = ((Asum (score Qg Kg b (tq i r)) (fun k => Vg k d) (j + 1) μ' : ℝ) : EReal) := by
  have hS : ∀ cc : Fin 512, tScore (fun r d => v3 (ix2 r d)) (fun k d => x1 (ix2 k d)) (fun r k => x3 (ix2 r k)) r cc
      = ((score Qg Kg b (tq i r) (tk j cc) : ℝ) : EReal) :=
    tScore_real Qg Kg b (tq i r) j (fun r d => v3 (ix2 r d)) (fun k d => x1 (ix2 k d)) (fun r k => x3 (ix2 r k)) r
      (fun d => h3 r d) (fun k d => h1 k d) (fun k => hm r k)
  obtain ⟨μ', hM, hL, hA⟩ := row_step
    (fun cc => tScore (fun r d => v3 (ix2 r d)) (fun k d => x1 (ix2 k d)) (fun r k => x3 (ix2 r k)) r cc)
    (fun k d => x2 (ix2 k d)) (score Qg Kg b (tq i r)) Vg j hS (fun k d => h2 k d)
    (v11 (ix2 r (0 : Fin 1))) (v20 (ix2 r (0 : Fin 1))) (fun d => v32 (ix2 r d)) hprev
  refine ⟨μ', ?_, ?_, fun d => ?_⟩
  · rw [Pay.pay9_apply]; exact hM
  · rw [Pay.pay12_apply]; exact hL
  · rw [Pay.pay1_apply]; exact hA d

/-! ## The representation and its induction -/

variable (m : (ℓ : Loc nD τ sig) → Buf (Elt Ideal) ℓ)

/-- The four argument arrays on a device. -/
abbrev Qa (c : Dev nD) : (⟨2, ![8192, 256]⟩ : Shape).Idx → EReal := m ((c : Thread nD τ).loc main_arg2)
abbrev Ka (c : Dev nD) : (⟨2, ![8192, 256]⟩ : Shape).Idx → EReal := m ((c : Thread nD τ).loc main_arg0)
abbrev Va (c : Dev nD) : (⟨2, ![8192, 256]⟩ : Shape).Idx → EReal := m ((c : Thread nD τ).loc main_arg1)
abbrev Ma (c : Dev nD) : (⟨2, ![8192, 8192]⟩ : Shape).Idx → BitVec 1 := m ((c : Thread nD τ).loc main_arg3)

/-- Row `q`'s scores against every key. -/
abbrev sRow (c : Dev nD) (q : Fin 8192) : Fin 8192 → ℝ :=
  score (realOf (Qa m c)) (realOf (Ka m c)) (maskOf (Ma m c)) q

/-- What the carried buffers hold after point `n`, row by row. -/
def Rep (c : Dev nD) (n : ℕ) (hn : n < cfg0.N) : Prop :=
  (∀ r : Fin 2048, ∃ μ : ℝ,
      (mS m c n hn (ix2 r (0 : Fin 1)) : EReal) = ((μ : ℝ) : EReal)
    ∧ (lS m c n hn (ix2 r (0 : Fin 1)) : EReal) = ((Lsum (sRow m c (tq (n / 16) r)) (n % 16 + 1) μ : ℝ) : EReal)
    ∧ ∀ d : Fin 256, (aS m c n hn (ix2 r d) : EReal)
        = ((Asum (sRow m c (tq (n / 16) r)) (fun k => realOf (Va m c) k d) (n % 16 + 1) μ : ℝ) : EReal))
  ∧ ∀ (r : Fin 2048) (d : Fin 256), (qS m c n hn (ix2 r d) : EReal) = ((realOf (Qa m c) (tq (n / 16) r) d : ℝ) : EReal) * SCALE

section Blocks
variable (c : Dev nD) (hQ : IsReal (Qa m c)) (hK : IsReal (Ka m c)) (hV : IsReal (Va m c))
include hQ hK hV

/-- The key block's entries as reals. -/
theorem kB_real (t : Fin cfg0.N) (k : Fin 512) (d : Fin 256) :
    (kB m c t (ix2 k d) : EReal) = ((realOf (Ka m c) (tk (t.val % 16) k) d : ℝ) : EReal) :=
  (Blocks.kblk_apply m c t k d).trans (hK.eq_realOf _ _)

/-- The value block's entries as reals. -/
theorem vB_real (t : Fin cfg0.N) (k : Fin 512) (d : Fin 256) :
    (vB m c t (ix2 k d) : EReal) = ((realOf (Va m c) (tk (t.val % 16) k) d : ℝ) : EReal) :=
  (Blocks.vblk_apply m c t k d).trans (hV.eq_realOf _ _)

/-- The mask block's word is zero exactly where the mask excludes the pair. -/
theorem mB_zero (t : Fin cfg0.N) (r : Fin 2048) (k : Fin 512) :
    (mB m c t (ix2 r k) : BitVec 32) = 0#32 ↔ maskOf (Ma m c) (tq (t.val / 16) r) (tk (t.val % 16) k) = false := by
  rw [show (mB m c t (ix2 r k) : BitVec 32) = _ from Blocks.mblk_apply m c t r k, setWidth_eq_zero_iff]
  unfold maskOf
  simp

/-- The scaled query block's entries. -/
theorem qB_scaled (t : Fin cfg0.N) (r : Fin 2048) (d : Fin 256) :
    (k0_pay7 (F := Ideal) (qB m c t) (ix2 r d) : EReal) = ((realOf (Qa m c) (tq (t.val / 16) r) d : ℝ) : EReal) * SCALE := by
  rw [Pay.pay7_apply]
  show (qB m c t (ix2 r d) : EReal) * SCALE = _
  exact congrArg (· * SCALE) ((Blocks.qblk_apply m c t r d).trans (hQ.eq_realOf _ _))

/-- A first-tile point: the update from the reset values. -/
theorem rep_A (t : Fin cfg0.N) (h0 : t.val % 16 = 0) : Rep m c t.val t.isLt := by
  have hN : t.val < 64 := lt_of_lt_of_eq t.isLt (show cfg0.N = 64 from N_0)
  have h1 : ¬ t.val % 16 = 15 := by omega
  refine ⟨fun r => ?_, fun r d => ?_⟩
  · obtain ⟨μ', h9, h12, h13⟩ := step_rows (realOf (Qa m c)) (realOf (Ka m c)) (realOf (Va m c)) (maskOf (Ma m c))
      (t.val / 16) (t.val % 16) (k0_pay7 (F := Ideal) (qB m c t)) (kB m c t) (vB m c t) (mB m c t)
      (k0_pay4 (F := Ideal)) (k0_pay5 (F := Ideal)) (k0_pay6 (F := Ideal))
      (qB_scaled m c hQ hK hV t) (kB_real m c hQ hK hV t) (vB_real m c hQ hK hV t) (mB_zero m c hQ hK hV t) r
      (Or.inl ⟨h0, Pay.pay4_apply r, Pay.pay5_apply r, fun d => Pay.pay6_apply r d⟩)
    refine ⟨μ', ?_, ?_, fun d => ?_⟩
    · rw [mS_A m c t h0 h1, Pay.pay2_eq]; exact h9
    · rw [lS_A m c t h0 h1]; exact h12
    · rw [aS_A m c t h0 h1]; exact h13 d
  · rw [qS_A m c t h0 h1]; exact qB_scaled m c hQ hK hV t r d

/-- A later point: the update of what the point before left. -/
theorem rep_BC (n : ℕ) (hn : n + 1 < cfg0.N) (h0 : ¬ (n + 1) % 16 = 0) (ih : Rep m c n (Nat.lt_of_succ_lt hn)) :
    Rep m c (n + 1) hn := by
  have hN : n + 1 < 64 := lt_of_lt_of_eq hn (show cfg0.N = 64 from N_0)
  have hdiv : (n + 1) / 16 = n / 16 := by omega
  have hmod : (n + 1) % 16 = n % 16 + 1 := by omega
  obtain ⟨ihR, ihQ⟩ := ih
  have eM : mS m c (n + 1) hn = k0_pay2 (k0_pay9 (qS m c n (Nat.lt_of_succ_lt hn)) (kB m c ⟨n + 1, hn⟩) (mB m c ⟨n + 1, hn⟩) (mS m c n (Nat.lt_of_succ_lt hn))) := by
    by_cases h1 : (n + 1) % 16 = 15
    · exact mS_C m c ⟨n + 1, hn⟩ h0 h1
    · exact mS_B m c ⟨n + 1, hn⟩ h0 h1
  have eL : lS m c (n + 1) hn = k0_pay12 (qS m c n (Nat.lt_of_succ_lt hn)) (kB m c ⟨n + 1, hn⟩) (mB m c ⟨n + 1, hn⟩) (mS m c n (Nat.lt_of_succ_lt hn)) (lS m c n (Nat.lt_of_succ_lt hn)) := by
    by_cases h1 : (n + 1) % 16 = 15
    · exact lS_C m c ⟨n + 1, hn⟩ h0 h1
    · exact lS_B m c ⟨n + 1, hn⟩ h0 h1
  have eA : aS m c (n + 1) hn = k0_pay1 (k0_pay10 (qS m c n (Nat.lt_of_succ_lt hn)) (kB m c ⟨n + 1, hn⟩) (mB m c ⟨n + 1, hn⟩) (mS m c n (Nat.lt_of_succ_lt hn)))
      (k0_pay13 (qS m c n (Nat.lt_of_succ_lt hn)) (kB m c ⟨n + 1, hn⟩) (mB m c ⟨n + 1, hn⟩) (mS m c n (Nat.lt_of_succ_lt hn)) (vB m c ⟨n + 1, hn⟩)) (aS m c n (Nat.lt_of_succ_lt hn)) := by
    by_cases h1 : (n + 1) % 16 = 15
    · exact aS_C m c ⟨n + 1, hn⟩ h0 h1
    · exact aS_B m c ⟨n + 1, hn⟩ h0 h1
  have eQ : qS m c (n + 1) hn = qS m c n (Nat.lt_of_succ_lt hn) := by
    by_cases h1 : (n + 1) % 16 = 15
    · exact qS_C m c ⟨n + 1, hn⟩ h0 h1
    · exact qS_B m c ⟨n + 1, hn⟩ h0 h1
  have hq : ∀ (r : Fin 2048) (d : Fin 256), (qS m c n (Nat.lt_of_succ_lt hn) (ix2 r d) : EReal)
      = ((realOf (Qa m c) (tq ((n + 1) / 16) r) d : ℝ) : EReal) * SCALE := fun r d => by
    rw [hdiv]; exact ihQ r d
  refine ⟨fun r => ?_, fun r d => ?_⟩
  · obtain ⟨μ, hmu, hl, ha⟩ := ihR r
    obtain ⟨μ', h9, h12, h13⟩ := step_rows (realOf (Qa m c)) (realOf (Ka m c)) (realOf (Va m c)) (maskOf (Ma m c))
      ((n + 1) / 16) ((n + 1) % 16) (qS m c n (Nat.lt_of_succ_lt hn)) (kB m c ⟨n + 1, hn⟩) (vB m c ⟨n + 1, hn⟩) (mB m c ⟨n + 1, hn⟩)
      (mS m c n (Nat.lt_of_succ_lt hn)) (lS m c n (Nat.lt_of_succ_lt hn)) (aS m c n (Nat.lt_of_succ_lt hn))
      hq (kB_real m c hQ hK hV ⟨n + 1, hn⟩) (vB_real m c hQ hK hV ⟨n + 1, hn⟩) (mB_zero m c hQ hK hV ⟨n + 1, hn⟩) r
      (Or.inr ⟨μ, hmu, by rw [hdiv, hmod]; exact hl, fun d => by rw [hdiv, hmod]; exact ha d⟩)
    refine ⟨μ', ?_, ?_, fun d => ?_⟩
    · rw [eM, Pay.pay2_eq]; exact h9
    · rw [eL]; exact h12
    · rw [eA]; exact h13 d
  · rw [eQ]; exact hq r d

/-- After every point the carried buffers hold the row representation. -/
theorem rep_all : ∀ (n : ℕ) (hn : n < cfg0.N), Rep m c n hn := by
  intro n
  induction n with
  | zero => intro hn; exact rep_A m c hQ hK hV ⟨0, hn⟩ rfl
  | succ n ih =>
    intro hn
    by_cases h0 : (n + 1) % 16 = 0
    · exact rep_A m c hQ hK hV ⟨n + 1, hn⟩ h0
    · exact rep_BC m c hQ hK hV n hn h0 (ih (Nat.lt_of_succ_lt hn))

/-- At a last-tile point the output block holds the attention average of each of its rows. -/
theorem out_C (t : Fin cfg0.N) (h1 : t.val % 16 = 15) (r : Fin 2048) (d : Fin 256) :
    (oS m c t.val t.isLt (ix2 r d) : EReal) = ((attn (sRow m c (tq (t.val / 16) r)) (realOf (Va m c)) d : ℝ) : EReal) := by
  have h0 : ¬ t.val % 16 = 0 := by omega
  obtain ⟨hR, _⟩ := rep_all m c hQ hK hV t.val t.isLt
  obtain ⟨μ, _, hl, ha⟩ := hR r
  rw [oS_C m c t h0 h1, Pay.pay3_apply, ha d, hl, h1]
  exact row_final _ _ d μ

end Blocks

end Cert.KernelIdeal.Rows
end
-- ==== Proof.Final.lean ====
/-
  The kernel's result array is the attention average, index by index.

  Only the last-tile points write the output window back, and what point `t` of them writes is rows
  `2048 · (t / 16) + r` of the result: the attention average of each of those rows. The four last-tile points, one per
  query tile, cover all 8192 rows, so the whole result array is the specification's.
-/
import proofs.«422734_j67654324847232_3_alg».proof.Proof.Gen.KernelIdeal.Value
import proofs.«422734_j67654324847232_3_alg».proof.Proof.Rows

noncomputable section
open Idealize.ShloMosaic Idealize.ShloMosaic.TcCoe Idealize.SL.Sem Idealize.ShloMosaic.ValueIdx
open Idealize.ShloMosaic.Pipeline (Dat)

namespace Cert.KernelIdeal.Final
open Cert.KernelIdeal Cert.KernelIdeal.Gen Cert.KernelIdeal.Comps Cert.KernelIdeal.Rows Cert.Attn

variable (m : (ℓ : Loc nD τ sig) → Buf (Elt Ideal) ℓ) (ρ : Dev nD → PrngReg)

/-- The specification at a device's argument arrays. -/
abbrev spec (c : Dev nD) : (⟨2, ![8192, 256]⟩ : Shape).Idx → EReal := G (Qa m c) (Ka m c) (Va m c) (Ma m c)

section
variable (c : Dev nD) (hQ : IsReal (Qa m c)) (hK : IsReal (Ka m c)) (hV : IsReal (Va m c))
include hQ hK hV

/-- At a last-tile point the output block, at any of its indices, is the specification at the global index. -/
theorem oS_eq (t : Fin cfg0.N) (h1 : t.val % 16 = 15) (y : S2048x256.Idx) :
    (oS m c t.val t.isLt y : EReal) = spec m c (ix2 (tq (t.val / 16) ⟨(y 0).val, (y 0).isLt⟩) ⟨(y 1).val, (y 1).isLt⟩) := by
  have hy : y = ix2 (⟨(y 0).val, (y 0).isLt⟩ : Fin 2048) (⟨(y 1).val, (y 1).isLt⟩ : Fin 256) :=
    funext fun a => Fin.ext (by match a with | ⟨0, _⟩ => rfl | ⟨1, _⟩ => rfl)
  refine (congrArg (fun z => (oS m c t.val t.isLt z : EReal)) hy).trans ?_
  refine (out_C m c hQ hK hV t h1 _ _).trans ?_
  exact (G_ix2 _ _ _ _ _ _).symm

/-- What a last-tile point writes back is its block of the specification. -/
theorem flushed_eq (t : Fin cfg0.N) (hf : (cfg0.win 4).flush t = true) :
    (dats m 0 c).flushed 4 t = ((cfg0.win 4).blk t).view.read (Elt Ideal) (spec m c) := by
  have h1 : t.val % 16 = 15 := (flush0_4 t).mp hf
  have hN : t.val < 64 := lt_of_lt_of_eq t.isLt (show cfg0.N = 64 from N_0)
  rw [Value.flushed4]
  funext j
  have hj0 : (j 0).val < 2048 := (j 0).isLt
  have hj1 : (j 1).val < 256 := (j 1).isLt
  show (oS m c t.val t.isLt j : EReal) = spec m c (((cfg0.win 4).blk t).view.emb j)
  refine (oS_eq m c hQ hK hV t h1 j).trans ?_
  congr 1
  funext a
  apply Fin.ext
  match a with
  | ⟨0, _⟩ =>
    show (tq (t.val / 16) ⟨(j 0).val, hj0⟩).val = win0_4.index t 0 * 2048 + 1 * (j 0).val
    rw [(Blocks.idx4 t).1, tq_val (by omega)]; dsimp only; omega
  | ⟨1, _⟩ =>
    show (j 1).val = win0_4.index t 1 * 256 + 1 * (j 1).val
    rw [(Blocks.idx4 t).2]; omega

/-- The result array after the run is the specification: the last-tile points' blocks cover it, row `q` lying in the
    block of query tile `q / 2048`. -/
theorem final : (dats m 0 c).arrAt 4 cfg0.N = spec m c :=
  (dats m 0 c).arrAt_eq_of_cover 4 (spec m c) (flushed_eq m c hQ hK hV) fun i => by
    have hi0 : (i 0).val < 8192 := (i 0).isLt
    have hi1 : (i 1).val < 256 := (i 1).isLt
    have hN : cfg0.N = 64 := N_0
    have ht : 16 * ((i 0).val / 2048) + 15 < cfg0.N := by rw [hN]; omega
    have e := Blocks.idx4 (⟨16 * ((i 0).val / 2048) + 15, ht⟩ : Fin cfg0.N)
    have e0 : win0_4.index (⟨16 * ((i 0).val / 2048) + 15, ht⟩ : Fin cfg0.N) (0 : Fin 2) = (i 0).val / 2048 := by
      rw [e.1]; show (16 * ((i 0).val / 2048) + 15) / 16 = _; omega
    refine ⟨⟨16 * ((i 0).val / 2048) + 15, ht⟩, (flush0_4 _).mpr (by show (16 * ((i 0).val / 2048) + 15) % 16 = 15; omega), ?_⟩
    show i ∈ ((View.whole main_v1).slice (win0_4.rect ⟨16 * ((i 0).val / 2048) + 15, ht⟩)).set
    rw [View.set_slice_whole, Rect.mem_set_unit]
    intro a
    match a with
    | ⟨0, _⟩ =>
      show win0_4.index ⟨16 * ((i 0).val / 2048) + 15, ht⟩ (0 : Fin 2) * 2048 ≤ (i 0).val
        ∧ (i 0).val < win0_4.index ⟨16 * ((i 0).val / 2048) + 15, ht⟩ (0 : Fin 2) * 2048 + 2048
      rw [e0]; omega
    | ⟨1, _⟩ =>
      show win0_4.index ⟨16 * ((i 0).val / 2048) + 15, ht⟩ (1 : Fin 2) * 256 ≤ (i 1).val
        ∧ (i 1).val < win0_4.index ⟨16 * ((i 0).val / 2048) + 15, ht⟩ (1 : Fin 2) * 256 + 256
      rw [e.2]; omega

end

/-- The run, read: on every device the result array ends at the specification and the arguments are unchanged. -/
theorem run (hreal : ∀ c : Dev nD, IsReal (Qa m c) ∧ IsReal (Ka m c) ∧ IsReal (Va m c)) :
    θ_run defs (onTc (τ := τ) (main (F := Ideal))) ⟨m, fun _ => 0, ρ⟩ fun r => ∀ c : Dev nD,
      r.2.mem ((c : Thread nD τ).loc main_v1) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hreal c).1 (hreal c).2.1 (hreal c).2.2), (h c).2⟩)
    (Value.run_blocks m ρ)

end Cert.KernelIdeal.Final
end
-- ==== Proof.RefValue.lean ====
/-
  The reference program's result, index by index, is the attention average; and the precondition makes the three
  float arguments arrays of reals.

  The reference is read one stage at a time at coordinates `(q, k)`: the scaled dot product of two real rows is a
  coerced real, the select on the mask bit is the `if` of the specification's score, the row maximum is a fold of
  `max` from `-∞` over the row, and what remains is the one-pass softmax average of the value rows.
-/
import proofs.«422734_j67654324847232_3_alg».proof.Proof.Gen.ReferenceIdeal.Read
import proofs.«422734_j67654324847232_3_alg».proof.Proof.Gen.Pre_finite_inputs
import proofs.«422734_j67654324847232_3_alg».proof.Proof.Spec
import proofs.«422734_j67654324847232_3_alg».proof.Proof.Stream
import proofs.«422734_j67654324847232_3_alg».proof.Proof.LibERealRows
import Idealize.ShloMosaic.Lib.ReduceAll

noncomputable section

namespace Cert.Attn.Ref

open Idealize.ShloMosaic Idealize.ShloMosaic.ValueIdx Cert.Attn

/-! ## The constants -/

/-- The sentinel's pattern has exponent field 226, not 255, so it denotes a real. -/
private theorem NEG_real : ∃ r : ℝ, NEG = (r : EReal) := by
  unfold NEG
  show ∃ r : ℝ, Ideal.ieee 8 23 (0xF149F2CA#32) = (r : EReal)
  unfold Ideal.ieee
  simp only []
  rw [if_neg (by decide), if_neg (by decide)]
  exact ⟨_, rfl⟩

/-- The sentinel is its own real part. -/
private theorem NEG_eq : NEG = ((negR : ℝ) : EReal) := by
  obtain ⟨r, hr⟩ := NEG_real
  unfold negR; rw [hr]; rfl

/-- The pattern `0x43800000` denotes 256. -/
private theorem ofBits_256 : Ideal.ofBits .f32 0x43800000#32 = ((256 : ℝ) : EReal) := by
  simp [Ideal.ofBits, Ideal.ieee, -EReal.coe_mul]; norm_num

/-- The square root of 256 is 16. -/
private theorem sqrt_256 : Ideal.sqrt ((256 : ℝ) : EReal) = ((16 : ℝ) : EReal) := by
  show (if (256 : ℝ) < 0 then (⊥ : EReal) else ((Real.sqrt 256 : ℝ) : EReal)) = _
  rw [if_neg (by norm_num), show (256 : ℝ) = 16 ^ 2 by norm_num, Real.sqrt_sq (by norm_num)]

/-- The reference's scale `1 / √256` is the real `1/16`. -/
private theorem scale_eq (i : Cert.ReferenceIdeal.S_.Idx) :
    Cert.ReferenceIdeal.Read.val_main_v1 (F := Ideal) i = (((1 : ℝ) / 16 : ℝ) : EReal) := by
  rw [Cert.ReferenceIdeal.Read.val_main_v1_apply, Cert.ReferenceIdeal.Read.val_main_v0_apply,
    Cert.ReferenceIdeal.Read.val_main_cst_0_apply, Cert.ReferenceIdeal.Read.val_main_cst_apply]
  show Ideal.div (Ideal.ofBits .f32 0x3F800000#32) (Ideal.sqrt (Ideal.ofBits .f32 0x43800000#32)) = _
  rw [ofBits_256, sqrt_256, Cert.ERealRows.ofBits_one, Ideal.div_coe (by norm_num), one_mul]

/-! ## The reference's index maps at coordinates -/

section Index

open Cert.ReferenceIdeal.Read

private theorem lidx17 (q : Fin 8192) (d : Fin 256) (k : Fin 8192) : lidx_main_v17 (ix2 q d) k = ix2 q k :=
  funext fun a => Fin.ext (by match a with | ⟨0, _⟩ => rfl | ⟨1, _⟩ => rfl)

private theorem ridx17 (q : Fin 8192) (d : Fin 256) (k : Fin 8192) : ridx_main_v17 (ix2 q d) k = ix2 k d :=
  funext fun a => Fin.ext (by match a with | ⟨0, _⟩ => rfl | ⟨1, _⟩ => rfl)

private theorem idx15 (q k : Fin 8192) : idx_main_v15 (ix2 q k) = ix2 q (0 : Fin 1) :=
  funext fun a => Fin.ext (by match a with | ⟨0, _⟩ => rfl | ⟨1, _⟩ => rfl)

private theorem idx14 (q : Fin 8192) : idx_main_v14 (ix2 q (0 : Fin 1)) = ix1 q :=
  funext fun a => Fin.ext (by match a with | ⟨0, _⟩ => rfl)

private theorem idx13 (q k : Fin 8192) : idx_main_v13 (ix1 q) k = ix2 q k :=
  funext fun a => Fin.ext (by match a with | ⟨0, _⟩ => rfl | ⟨1, _⟩ => rfl)

private theorem idx10 (q k : Fin 8192) : idx_main_v10 (ix2 q k) = ix2 q (0 : Fin 1) :=
  funext fun a => Fin.ext (by match a with | ⟨0, _⟩ => rfl | ⟨1, _⟩ => rfl)

private theorem idx9 (q : Fin 8192) : idx_main_v9 (ix2 q (0 : Fin 1)) = ix1 q :=
  funext fun a => Fin.ext (by match a with | ⟨0, _⟩ => rfl)

private theorem lidx2 (q k : Fin 8192) (d : Fin 256) : lidx_main_v2 (ix2 q k) d = ix2 q d :=
  funext fun a => Fin.ext (by match a with | ⟨0, _⟩ => rfl | ⟨1, _⟩ => rfl)

private theorem ridx2 (q k : Fin 8192) (d : Fin 256) : ridx_main_v2 (ix2 q k) d = ix2 k d :=
  funext fun a => Fin.ext (by match a with | ⟨0, _⟩ => rfl | ⟨1, _⟩ => rfl)

end Index

/-! ## The reference's stages at coordinates -/

section Stages
open Cert.ReferenceIdeal.Read
variable (K V Q : FVec Ideal Cert.ReferenceIdeal.S8192x256 .f32) (M : IVec Cert.ReferenceIdeal.S8192x8192 1)

/-- The reference's masked score at `(q, k)` is the real score of the specification: the dot product of two real rows
    is the coerced real dot product, the scale is the real `1/16`, and the select on the mask bit is the `if`. -/
private theorem v5_eq (hK : IsReal K) (hQ : IsReal Q) (q k : Fin 8192) :
    val_main_v5 (F := Ideal) K Q M (ix2 q k) = ((score (realOf Q) (realOf K) (maskOf M) q k : ℝ) : EReal) := by
  rw [val_main_v5_apply, val_main_v4_apply, val_main_v2_apply, val_main_v3_apply, scale_eq,
    val_main_call0_v1_apply, val_main_call0_v0_apply, val_main_cst_1_apply]
  simp only [lidx2, ridx2, hQ.eq_realOf, hK.eq_realOf]
  have hsum : ∑ d : Fin 256, ((realOf Q q d : ℝ) : EReal) * ((realOf K k d : ℝ) : EReal)
      = ((∑ d : Fin 256, realOf Q q d * realOf K k d : ℝ) : EReal) := by
    rw [← Cert.ERealRows.coe_sum]; exact Finset.sum_congr rfl fun d _ => (EReal.coe_mul _ _).symm
  rw [hsum]
  show Scalar.select _ (_ * _) NEG = _
  rw [← EReal.coe_mul, NEG_eq]
  unfold score maskOf Scalar.select
  by_cases hm : M (ix2 q k) = 1
  · have hb : (M (ix2 q k) == 1#1) = true := by rw [hm]; rfl
    rw [if_pos hm, if_pos hb]
  · have hb : ¬ (M (ix2 q k) == 1#1) = true := fun hb => hm (eq_of_beq hb)
    rw [if_neg hm, if_neg hb]

/-- Row `q` of the scores with key `k` put back on the reduced axis is `(q, k)`. -/
private theorem lift_ix (h : Cert.ReferenceIdeal.S8192x8192.Reduces [1] Cert.ReferenceIdeal.S8192) (q : Fin 8192)
    (k : Fin (Cert.ReferenceIdeal.S8192x8192.size 1)) : h.lift (ix1 q) k = ix2 q (⟨k.val, k.isLt⟩ : Fin 8192) := by
  funext c; apply Fin.ext
  fin_cases c <;> rfl

/-- The reference's row maximum is the maximum of the row's real scores, folded from `-∞`. -/
private theorem v6_eq (hK : IsReal K) (hQ : IsReal Q) (q : Fin 8192) :
    val_main_v6 (F := Ideal) K Q M (ix1 q)
      = (Finset.univ : Finset (Fin 8192)).fold max (⊥ : EReal) fun k => ((score (realOf Q) (realOf K) (maskOf M) q k : ℝ) : EReal) := by
  have h : Cert.ReferenceIdeal.S8192x8192.Reduces [1] Cert.ReferenceIdeal.S8192 := by decide
  unfold val_main_v6
  rw [Host.reduce_eq_fold_single FloatOps.maximumf _ _ _ h, val_main_cst_2_apply]
  have hf : (val_main_v5 (F := Ideal) K Q M ∘ h.lift (ix1 q))
      = fun k : Fin 8192 => ((score (realOf Q) (realOf K) (maskOf M) q k : ℝ) : EReal) :=
    funext fun k => (congrArg (val_main_v5 (F := Ideal) K Q M) (lift_ix h q k)).trans (v5_eq K Q M hK hQ q ⟨k.val, k.isLt⟩)
  show Finset.fold max (Ideal.ofBits .f32 0xFF800000#32) _ (Finset.univ : Finset (Fin 8192)) = _
  rw [Cert.ERealRows.ofBits_negInf]
  exact congrArg (fun f => Finset.fold max (⊥ : EReal) f (Finset.univ : Finset (Fin 8192))) hf

/-- The reference joins the row maximum with `-∞` once more. -/
private theorem v8_eq (hK : IsReal K) (hQ : IsReal Q) (q : Fin 8192) :
    val_main_v8 (F := Ideal) K Q M (ix1 q)
      = max (⊥ : EReal) ((Finset.univ : Finset (Fin 8192)).fold max (⊥ : EReal) fun k => ((score (realOf Q) (realOf K) (maskOf M) q k : ℝ) : EReal)) := by
  rw [val_main_v8_apply, val_main_v7_apply, val_main_cst_3_apply, v6_eq K Q M hK hQ]
  show max (Ideal.ofBits .f32 0xFF800000#32) _ = _
  rw [Cert.ERealRows.ofBits_negInf]

/-- The reference's weight at `(q, k)`: the exponential of the score shifted by the row's maximum. -/
private theorem v12_eq (hK : IsReal K) (hQ : IsReal Q) (q k : Fin 8192) :
    val_main_v12 (F := Ideal) K Q M (ix2 q k)
      = Ideal.exp (((score (realOf Q) (realOf K) (maskOf M) q k : ℝ) : EReal)
          - max (⊥ : EReal) ((Finset.univ : Finset (Fin 8192)).fold max (⊥ : EReal) fun k' => ((score (realOf Q) (realOf K) (maskOf M) q k' : ℝ) : EReal))) := by
  rw [val_main_v12_apply, Ideal.hostUnary_exp_def, val_main_v11_apply, Ideal.subf_def, val_main_v10_apply, idx10,
    val_main_v9_apply, idx9, v8_eq K Q M hK hQ, v5_eq K Q M hK hQ]

/-- The reference's row sum of weights, started from `0`. -/
private theorem v13_eq (hK : IsReal K) (hQ : IsReal Q) (q : Fin 8192) :
    val_main_v13 (F := Ideal) K Q M (ix1 q)
      = 0 + ∑ k : Fin 8192, Ideal.exp (((score (realOf Q) (realOf K) (maskOf M) q k : ℝ) : EReal)
          - max (⊥ : EReal) ((Finset.univ : Finset (Fin 8192)).fold max (⊥ : EReal) fun k' => ((score (realOf Q) (realOf K) (maskOf M) q k' : ℝ) : EReal))) := by
  rw [val_main_v13_apply, val_main_cst_4_apply, Ideal.ofBits_def, Ideal.ofBits_zero_f32]
  simp only [idx13, v12_eq K Q M hK hQ]

/-- The reference's normalised weight at `(q, k)`. -/
private theorem v16_eq (hK : IsReal K) (hQ : IsReal Q) (q k : Fin 8192) :
    val_main_v16 (F := Ideal) K Q M (ix2 q k)
      = Ideal.div
          (Ideal.exp (((score (realOf Q) (realOf K) (maskOf M) q k : ℝ) : EReal)
            - max (⊥ : EReal) ((Finset.univ : Finset (Fin 8192)).fold max (⊥ : EReal) fun k' => ((score (realOf Q) (realOf K) (maskOf M) q k' : ℝ) : EReal))))
          (0 + ∑ k' : Fin 8192, Ideal.exp (((score (realOf Q) (realOf K) (maskOf M) q k' : ℝ) : EReal)
            - max (⊥ : EReal) ((Finset.univ : Finset (Fin 8192)).fold max (⊥ : EReal) fun k'' => ((score (realOf Q) (realOf K) (maskOf M) q k'' : ℝ) : EReal)))) := by
  rw [val_main_v16_apply, Ideal.hostDivf_def, val_main_v15_apply, idx15, val_main_v14_apply, idx14, v13_eq K Q M hK hQ,
    v12_eq K Q M hK hQ]

end Stages

/-! ## The two facts the other modules use -/

/-- The reference's last stage, at real arguments, is the attention average at every index. -/
theorem ref_eq (K V Q : FVec Ideal Cert.ReferenceIdeal.S8192x256 .f32) (M : IVec Cert.ReferenceIdeal.S8192x8192 1)
    (hK : IsReal K) (hV : IsReal V) (hQ : IsReal Q) :
    Cert.ReferenceIdeal.Read.val_main_v17 (F := Ideal) K V Q M = G Q K V M := by
  funext i
  obtain ⟨q, d, rfl⟩ : ∃ (q : Fin 8192) (d : Fin 256), i = ix2 q d := ⟨i 0, i 1, eq_ix2 i⟩
  rw [G_ix2, Cert.ReferenceIdeal.Read.val_main_v17_apply]
  simp only [lidx17, ridx17, v16_eq K Q M hK hQ, hV.eq_realOf]
  exact row_onepass (score (realOf Q) (realOf K) (maskOf M) q) (realOf V) d

/-- Under the precondition every entry of the three float arguments is a real: the conjunction splits into three
    `all`-reductions, each of which says that every entry's absolute value compares below `+∞`. -/
theorem real_of_pre (x0 x1 x2 : FVec Ideal Cert.Pre_finite_inputs.S8192x256 .f32) (x3 : IVec Cert.Pre_finite_inputs.S8192x8192 1)
    (h : Cert.Pre_finite_inputs.fn (F := Ideal) x0 x1 x2 x3 = fun _ => 1#1) :
    IsReal x0 ∧ IsReal x1 ∧ IsReal x2 := by
  have h0 := congrFun h ValueIdx.ix0
  dsimp only [Cert.Pre_finite_inputs.fn] at h0
  haveI : Subsingleton Cert.Pre_finite_inputs.S_.Idx := ⟨fun a b => funext fun d => d.elim0⟩
  obtain ⟨h01, h2⟩ := IntOp.andi_eq_one.1 h0
  obtain ⟨h0', h1⟩ := IntOp.andi_eq_one.1 h01
  refine ⟨fun i => ?_, fun i => ?_, fun i => ?_⟩
  · have e := Host.reduce_andi_all _ _ _ _ _ h0' i
    exact Cert.ERealRows.real_of_abs_lt_inf (x0 i) e
  · have e := Host.reduce_andi_all _ _ _ _ _ h1 i
    exact Cert.ERealRows.real_of_abs_lt_inf (x1 i) e
  · have e := Host.reduce_andi_all _ _ _ _ _ h2 i
    exact Cert.ERealRows.real_of_abs_lt_inf (x2 i) e

end Cert.Attn.Ref

end
-- ==== Proof.lean ====
/-
  The certificate: a flash-attention kernel against masked softmax attention.

  Both programs compute, for 8192 queries and 8192 keys of width 256 and a Boolean mask, the softmax of the scaled
  dot products — the sentinel `-1e30` where the mask excludes a pair — applied to the value rows. The reference does it
  in one pass: all scores, the row maximum subtracted, exponentials, their sum, the quotient, the product with the
  values. The kernel streams the keys in 16 tiles of 512 per query tile of 2048 rows, keeping per row a running
  maximum, a denominator and a numerator, rescaling the two sums whenever the maximum moves, and divides at the last
  tile; it scales the queries once (`1/16`, which is exactly `1/√256`) instead of scaling every score.

  Over the extended reals, with every float argument finite, the two agree index by index: a softmax does not see a
  common shift, so the streamed sums under ANY real running maximum give the same quotient as the one-pass sums under
  the row maximum; and scaling a real query row before its dot product is scaling the dot product. Every score is a
  real — a finite dot product or the finite sentinel — so no infinity ever meets the cancellations. The idealized
  kernel is the printed kernel read at exact arithmetic with no rewrite, so there is nothing to preserve.
-/
import proofs.«422734_j67654324847232_3_alg».proof.Defs
import proofs.«422734_j67654324847232_3_alg».proof.Proof.Gen.Kernel
import proofs.«422734_j67654324847232_3_alg».proof.Proof.Gen.Kernel.Skeleton
import proofs.«422734_j67654324847232_3_alg».proof.Proof.Gen.Kernel.Launch
import proofs.«422734_j67654324847232_3_alg».proof.Proof.Gen.Kernel.Points
import proofs.«422734_j67654324847232_3_alg».proof.Proof.Gen.Kernel.Frame
import proofs.«422734_j67654324847232_3_alg».proof.Proof.Gen.KernelIdeal
import proofs.«422734_j67654324847232_3_alg».proof.Proof.Gen.KernelIdeal.Skeleton
import proofs.«422734_j67654324847232_3_alg».proof.Proof.Gen.KernelIdeal.Launch
import proofs.«422734_j67654324847232_3_alg».proof.Proof.Gen.KernelIdeal.Points
import proofs.«422734_j67654324847232_3_alg».proof.Proof.Gen.KernelIdeal.Frame
import proofs.«422734_j67654324847232_3_alg».proof.Proof.Gen.ReferenceIdeal
import proofs.«422734_j67654324847232_3_alg».proof.Proof.Gen.Pre_finite_inputs
import proofs.«422734_j67654324847232_3_alg».proof.Proof.Gen.KernelIdeal.Value
import proofs.«422734_j67654324847232_3_alg».proof.Proof.Gen.ReferenceIdeal.Run
import proofs.«422734_j67654324847232_3_alg».proof.Proof.Gen.ReferenceIdeal.Read
import proofs.«422734_j67654324847232_3_alg».proof.Proof.Final
import proofs.«422734_j67654324847232_3_alg».proof.Proof.RefValue
import Idealize.ShloMosaic.Adequacy
import Idealize.ShloMosaic.Init

noncomputable section

namespace Cert.Proof

open Idealize.ShloMosaic Idealize.ShloMosaic.TcCoe Idealize.SL.Sem Cert.Attn

/-- The printed kernel runs and leaves its arguments unchanged. -/
theorem frame_k : Cert.frame_Kernel := fun m ρ _ => Cert.Kernel.Gen.frame m ρ

/-- So does the kernel read at exact arithmetic. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Under the precondition the kernel's result array ends at the attention average of its arguments (the streamed
    sums, row by row), the reference's at the same of arguments that agree (the one-pass softmax, index by index). -/
theorem algebraic : Cert.algebraic_KernelIdeal_ReferenceIdeal := by
  intro m ρ m' ρ' hpre hagree
  have hreal : ∀ c : Dev Cert.KernelIdeal.nD, IsReal (Cert.KernelIdeal.Rows.Qa m c) ∧ IsReal (Cert.KernelIdeal.Rows.Ka m c)
      ∧ IsReal (Cert.KernelIdeal.Rows.Va m c) := fun c => by
    obtain ⟨hK, hV, hQ⟩ := Cert.Attn.Ref.real_of_pre _ _ _ _ (hpre c)
    exact ⟨hQ, hK, hV⟩
  refine ⟨fun c => Cert.KernelIdeal.Final.spec m c, Cert.KernelIdeal.Final.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2]
  exact Cert.Attn.Ref.ref_eq _ _ _ _ (hreal c).2.1 (hreal c).2.2 (hreal c).1

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
